-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S512x4096 : Shape := ⟨2, ![512, 4096]⟩
abbrev S512 : Shape := ⟨1, ![512]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S512x4096 : S_.BroadcastsInDim S512x4096 (![] : Fin 0 → Fin S512x4096.rank)
  reducesTo_S512x4096_S_d0_1 : S512x4096.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S32768x4096 .f32) (main_arg1 : FVec F S512x4096 .f32) (main_arg2 : FVec F S512 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S512x4096 .f32 := Host.absf main_arg1
  let main_cst_0 : FVec F S_ .f32 := constant S_ .f32 0x7F800000#32
  let main_v5 : FVec F S512x4096 .f32 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S32768x4096 : Shape := ⟨2, ![32768, 4096]⟩
abbrev S512x4096 : Shape := ⟨2, ![512, 4096]⟩
abbrev S512 : Shape := ⟨1, ![512]⟩
abbrev S1x512 : Shape := ⟨2, ![1, 512]⟩
abbrev S32768x512 : Shape := ⟨2, ![32768, 512]⟩
abbrev S2048x2048 : Shape := ⟨2, ![2048, 2048]⟩
abbrev S2048x512 : Shape := ⟨2, ![2048, 512]⟩
abbrev S512x2048 : Shape := ⟨2, ![512, 2048]⟩

abbrev nBuf : Space → Nat
  | .hbm => 5
  | .vmem => 7
  | .smem => 0
  | _ => 0

abbrev bufTy : (tb : Table) → Fin (tcTables nBuf tb) → BufTy
  | .hbm, ⟨0, _⟩ => ⟨S32768x4096, .f32⟩
  | .hbm, ⟨1, _⟩ => ⟨S512x4096, .f32⟩
  | .hbm, ⟨2, _⟩ => ⟨S512, .f32⟩
  | .hbm, ⟨3, _⟩ => ⟨S1x512, .f32⟩
  | .hbm, ⟨4, _⟩ => ⟨S32768x512, .f32⟩
  | .local _ .vmem, ⟨0, _⟩ => ⟨S2048x2048, .f32⟩
  | .local _ .vmem, ⟨1, _⟩ => ⟨S2048x2048, .f32⟩
  | .local _ .vmem, ⟨2, _⟩ => ⟨S512x4096, .f32⟩
  | .local _ .vmem, ⟨3, _⟩ => ⟨S1x512, .f32⟩
  | .local _ .vmem, ⟨4, _⟩ => ⟨S2048x512, .f32⟩
  | .local _ .vmem, ⟨5, _⟩ => ⟨S2048x512, .f32⟩
  | .local _ .vmem, ⟨6, _⟩ => ⟨S512x4096, .bf16⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 2], ![false, false]⟩

def k0_off1 (i : grid0.Coords) : Fin 2 → Nat :=
  let c0_3 : Index := 0#32
  let arg1 : BitVec 32 := BitVec.ofNat 32 (i 1).val
  let c2048_i32 : BitVec 32 := 2048#32
  let v7 : BitVec 32 := Scalar.muli arg1 c2048_i32
  let v8 : Index := Scalar.indexCast v7
  ![0, v8.toNat]
def k0_cond2 (i : grid0.Coords) : BitVec 1 :=
  let arg1 : BitVec 32 := BitVec.ofNat 32 (i 1).val
  let c0_i32_4 : BitVec 32 := 0#32
  let v11 : BitVec 1 := Scalar.cmpi .eq arg1 c0_i32_4
  let v12 : BitVec 32 := Scalar.extui v11
  let c0_i32_5 : BitVec 32 := 0#32
  let v13 : BitVec 1 := Scalar.cmpi .ne v12 c0_i32_5
  v13

def k0_cond3 (i : grid0.Coords) : BitVec 1 :=
  let arg1 : BitVec 32 := BitVec.ofNat 32 (i 1).val
  let c1_i32 : BitVec 32 := 1#32
  let v14 : BitVec 1 := Scalar.cmpi .eq arg1 c1_i32
  let v15 : BitVec 32 := Scalar.extui v14
  let c0_i32_6 : BitVec 32 := 0#32
  let v16 : BitVec 1 := Scalar.cmpi .ne v15 c0_i32_6
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S512_S1x512 : S512.ShapeCasts S1x512
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  shapeCasts_S512x4096_S512x4096 : S512x4096.ShapeCasts S512x4096
  packedbf16_S512x4096_S512x4096_0_0 : (Rect.unit (s := S512x4096) ![0, 0] S512x4096.size inb_S512x4096_S512x4096_0_0).PackedRows (EltTy.packing .bf16)
  inb_S2048x2048_S2048x2048_0_0 : ∀ a, (![0, 0] : Fin 2 → Nat) a + S2048x2048.size a ≤ S2048x2048.size a
  h_S2048x2048 : 0 < S2048x2048.numel
  h_S512x2048 : 0 < S512x2048.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  dot_S2048x2048_S512x2048_S2048x512_1_1_0_0_n_n_wf : DotDims.WF S2048x2048 S512x2048 S2048x512 [1] [1] [0] [0] [] []
  hrank0 : 0 < grid0.rank
  k0_off1_inb : ∀ i : grid0.Coords, ∀ a, (k0_off1 i) a + S512x2048.size a ≤ S512x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S32768x4096.size a
  hwx0_0 : ∀ i : grid0.Coords, EltTy.bits .f32 = 32 ∨ (Rect.block (s := S32768x4096) S2048x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S512x4096.size a
  hwx0_1 : ∀ i : grid0.Coords, EltTy.bits .f32 = 32 ∨ (Rect.block (s := S512x4096) S512x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S32768x512.size a
  hwx0_3 : ∀ i : grid0.Coords, EltTy.bits .f32 = 32 ∨ (Rect.block (s := S32768x512) S2048x512.size (cc0_transform_3 i) (hinb0_3 i)).WholeWords (EltTy.packing .f32)

variable [Facts₀]

def dot_S2048x2048_S512x2048_S2048x512_1_1_0_0_n_n : DotDims S2048x2048 S512x2048 S2048x512 where
  lhsContracting := [1]
  rhsContracting := [1]
  lhsNonContracting := [0]
  rhsNonContracting := [0]
  lhsBatch := []
  rhsBatch := []
  wf := dot_S2048x2048_S512x2048_S2048x512_1_1_0_0_n_n_wf

abbrev win0_0 : Pipeline.Window sig grid0 :=
  Pipeline.Window.ofSpec (Memref.whole main_arg0) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) && !(k0_cond3 i == 1#1) | ⟨_ + 4, h⟩ => absurd h (Nat.not_lt.2 (Nat.le_add_left _ _))

class Facts : Prop extends Facts₀ where

variable [Facts]
-- ==== ReferenceIdeal.lean ====
abbrev S32768x4096 : Shape := ⟨2, ![32768, 4096]⟩
abbrev S512x4096 : Shape := ⟨2, ![512, 4096]⟩
abbrev S512 : Shape := ⟨1, ![512]⟩
abbrev S4096x512 : Shape := ⟨2, ![4096, 512]⟩
abbrev S32768x512 : Shape := ⟨2, ![32768, 512]⟩
abbrev S1x512 : Shape := ⟨2, ![1, 512]⟩

abbrev nBuf : Space → Nat
  | .hbm => 8
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S512x4096, .f32⟩
  | .hbm, ⟨2, _⟩ => ⟨S512, .f32⟩
  | .hbm, ⟨3, _⟩ => ⟨S4096x512, .f32⟩
  | .hbm, ⟨4, _⟩ => ⟨S32768x512, .f32⟩
  | .hbm, ⟨5, _⟩ => ⟨S1x512, .f32⟩
  | .hbm, ⟨6, _⟩ => ⟨S32768x512, .f32⟩
  | .hbm, ⟨7, _⟩ => ⟨S32768x512, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S512x4096_S4096x512_1_0 : S512x4096.Transposes [1, 0] S4096x512
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  dot_S32768x4096_S4096x512_S32768x512_1_0_0_1_n_n_wf : DotDims.WF S32768x4096 S4096x512 S32768x512 [1] [0] [0] [1] [] []

variable [Facts₀]

def dot_S32768x4096_S4096x512_S32768x512_1_0_0_1_n_n : DotDims S32768x4096 S4096x512 S32768x512 where
  lhsContracting := [1]
  rhsContracting := [0]
  lhsNonContracting := [0]
  rhsNonContracting := [1]
  lhsBatch := []
  rhsBatch := []
  wf := dot_S32768x4096_S4096x512_S32768x512_1_0_0_1_n_n_wf

class Facts : Prop extends Facts₀ where

variable [Facts]
-- ==== Proof.K.Cases.lean ====
/-
  The grid of the router kernel and the three kinds of point on it. The grid is 16 token tiles by 2 halves of the
  hidden axis, walked in order: point t is tile t / 2, half t % 2. The body branches three times on the coordinates:
  at the very first point (tile 0, half 0) it casts the weight matrix into its scratch buffer; at a first-half point
  it stores the half product plus the bias into the output tile; at a second-half point it adds the half product to
  what the output tile already holds. So there are three kinds of point: the start (point 0), the other first-half
  points (even t > 0) and the second-half points (odd t). Here: the three conditions in closed form over the grid,
  the output window live at every coordinate, and the staging memrefs the body is called with.
-/
import proofs.«170584_g68101001445530_cont_9to1c4b_284_18_alg».proof.Proof.Gen.Kernel.Frame
import proofs.«170584_g68101001445530_cont_9to1c4b_284_18_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Router

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions -/

/-- Both coordinates are zero (the body's first branch, as its scalar chain computes it). -/
abbrev atStart (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The point is in the first half of the hidden axis (the body's second branch). -/
abbrev atLo (i : grid0.Coords) : Prop := k0_cond2 i = 1#1
/-- The point is in the second half (the body's third branch). -/
abbrev atHi (i : grid0.Coords) : Prop := k0_cond3 i = 1#1

theorem atStart_iff : ∀ t : Fin cfg0.N, atStart (grid0.coords t) ↔ t.val = 0 :=
  (by decide +kernel : ∀ t : Fin grid0.N, atStart (grid0.coords t) ↔ t.val = 0)
theorem atLo_iff : ∀ t : Fin cfg0.N, atLo (grid0.coords t) ↔ t.val % 2 = 0 :=
  (by decide +kernel : ∀ t : Fin grid0.N, atLo (grid0.coords t) ↔ t.val % 2 = 0)
theorem atHi_iff : ∀ t : Fin cfg0.N, atHi (grid0.coords t) ↔ t.val % 2 = 1 :=
  (by decide +kernel : ∀ t : Fin grid0.N, atHi (grid0.coords t) ↔ t.val % 2 = 1)

/-! ## No window is ever idle -/

theorem live_x : ∀ t : Fin cfg0.N, cfg0.idle 0 (grid0.coords t) = false := by decide +kernel
theorem live_w : ∀ t : Fin cfg0.N, cfg0.idle 1 (grid0.coords t) = false := by decide +kernel
theorem live_b : ∀ t : Fin cfg0.N, cfg0.idle 2 (grid0.coords t) = false := by decide +kernel
/-- The output tile is stored into at every coordinate: the second coordinate is 0 or 1, and one of the two stores is taken. -/
theorem live_out : ∀ i : grid0.Coords, cfg0.idle 3 i = false := by decide +kernel
theorem live_out_at (t : Fin cfg0.N) : cfg0.idle 3 (grid0.coords t) = false := live_out _

/-! ## What the body is called with -/

/-- Each window's current staging memref at point `t`, and that it is a whole buffer. -/
abbrev xM (t : Fin cfg0.N) : Memref sig .tc .vmem S2048x2048 .f32 := win0_0.stage (cfg0.slots t 0)
abbrev xM_whole (t : Fin cfg0.N) : (xM t).IsWhole := hstage0_0 ((cfg0.slots t 0).cast nbuf0_0)
abbrev wM (t : Fin cfg0.N) : Memref sig .tc .vmem S512x4096 .f32 := win0_1.stage (cfg0.slots t 1)
abbrev wM_whole (t : Fin cfg0.N) : (wM t).IsWhole := hstage0_1 ((cfg0.slots t 1).cast nbuf0_1)
abbrev bM (t : Fin cfg0.N) : Memref sig .tc .vmem S1x512 .f32 := win0_2.stage (cfg0.slots t 2)
abbrev bM_whole (t : Fin cfg0.N) : (bM t).IsWhole := hstage0_2 ((cfg0.slots t 2).cast nbuf0_2)
abbrev oM (t : Fin cfg0.N) : Memref sig .tc .vmem S2048x512 .f32 := win0_3.stage (cfg0.slots t 3)
abbrev oM_whole (t : Fin cfg0.N) : (oM t).IsWhole := hstage0_3 ((cfg0.slots t 3).cast nbuf0_3)
/-- The scratch that keeps the cast weights: a whole buffer of the kernel's own. -/
abbrev castM : Memref sig .tc .vmem S512x4096 .bf16 := Memref.whole cc0_scratch0
/-- One staging buffer of the output window and the scratch, as views through which contents are stated. -/
abbrev oV : View sig .tc .vmem S2048x512 .f32 := (Memref.whole cc0_stg3_0 : Memref sig .tc .vmem S2048x512 .f32).view
abbrev castV : View sig .tc .vmem S512x4096 .bf16 := castM.view

/-- The region's invariant before anything is known of the scratch: the scratch owned at some contents, and the
    generator register at some state. -/
theorem anyScratch_eq (c : Dev nD) :
    (Pipeline.ΦA spec0 c : sProp 𝕄)
      = iprop(iprop((∃ d, owns (c : Thread nD τ) castM fullShare d)) ∗ (∃ r, prngReg c r)) := by
  unfold Pipeline.ΦA; rw [scopedRest0_eq]; simp only [castM, owns_whole]; try rfl

end Cert.Kernel.Router

end
-- ==== Proof.K.RunStart.lean ====
/-
  The body at the start point (tile 0, first half): it loads the weight tile, stores its cast into the scratch, loads
  the token tile and the first half of the scratch's columns, and stores the half product plus the bias into the
  output tile. Nothing is assumed of the scratch or of the output tile beforehand (both are read once, dead loads).
-/
import proofs.«170584_g68101001445530_cont_9to1c4b_284_18_alg».proof.Proof.K.Cases

set_option maxRecDepth 16384

noncomputable section

namespace Cert.Kernel.Router

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the start point's stores leave in the output tile and in the scratch, with the body's triple. -/
noncomputable def runStart (c : Dev nD) (i : grid0.Coords) (arg2 : Memref sig .tc .vmem S2048x2048 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S2048x512 .f32) (harg5 : arg5.IsWhole) (arg6 : Memref sig .tc .vmem S512x4096 .bf16) (harg6 : arg6.IsWhole) (hs : atStart i) (hl : atLo i) (hh : ¬atHi i)
    (x : Vec F S2048x2048 .f32) (w : Vec F S512x4096 .f32) (b : Vec F S1x512 .f32) :
    Σ' (LO : List (View.Piece (Elt F) S2048x512 .f32)), { LC : List (View.Piece (Elt F) S512x4096 .bf16) //
      ∀ (E : Set ℕ) (K : PUnit → sProp 𝕄),
        iprop(owns (c : Thread nD τ) arg2 fullShare x ∗ owns (c : Thread nD τ) arg3 fullShare w ∗ owns (c : Thread nD τ) arg4 fullShare b ∗ (∃ d, owns (c : Thread nD τ) arg5 fullShare d) ∗ (∃ d, owns (c : Thread nD τ) arg6 fullShare d)
            ∗ (iprop(owns (c : Thread nD τ) arg2 fullShare x ∗ owns (c : Thread nD τ) arg3 fullShare w ∗ owns (c : Thread nD τ) arg4 fullShare b ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LC)) -∗ K ⟨⟩))
          ⊢ wp frame (wpE (defs₀ (F := F)) Variants.none c none) E (cc0__router_body i arg2 harg2 arg3 harg3 arg4 harg4 arg5 harg5 arg6 harg6) K } := by
  refine ⟨?_, ?_, fun E K => ?run⟩
  case run =>
    simp only [cc0__router_body_eq_skeleton]; unfold cc0__router_body_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hs | exact hl | exact hh)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Router

end
-- ==== Proof.K.RunLo.lean ====
/-
  The body at a first-half point after the start: the scratch already holds the cast weights; the body loads the token
  tile and the first half of the scratch's columns and stores the half product plus the bias into the output tile,
  whose earlier contents it reads once without using them.
-/
import proofs.«170584_g68101001445530_cont_9to1c4b_284_18_alg».proof.Proof.K.RunStart

set_option maxRecDepth 16384

noncomputable section

namespace Cert.Kernel.Router

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces a later first-half point's store leaves in the output tile, with the body's triple; the scratch is
    read, not written, and handed back at the contents it came with. -/
noncomputable def runLo (c : Dev nD) (i : grid0.Coords) (arg2 : Memref sig .tc .vmem S2048x2048 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S2048x512 .f32) (harg5 : arg5.IsWhole) (arg6 : Memref sig .tc .vmem S512x4096 .bf16) (harg6 : arg6.IsWhole) (hs : ¬atStart i) (hl : atLo i) (hh : ¬atHi i)
    (x : Vec F S2048x2048 .f32) (w : Vec F S512x4096 .f32) (b : Vec F S1x512 .f32) (wc : Vec F S512x4096 .bf16) :
    { LO : List (View.Piece (Elt F) S2048x512 .f32) //
      ∀ (E : Set ℕ) (K : PUnit → sProp 𝕄),
        iprop(owns (c : Thread nD τ) arg2 fullShare x ∗ owns (c : Thread nD τ) arg3 fullShare w ∗ owns (c : Thread nD τ) arg4 fullShare b ∗ (∃ d, owns (c : Thread nD τ) arg5 fullShare d) ∗ owns (c : Thread nD τ) arg6 fullShare wc
            ∗ (iprop(owns (c : Thread nD τ) arg2 fullShare x ∗ owns (c : Thread nD τ) arg3 fullShare w ∗ owns (c : Thread nD τ) arg4 fullShare b ∗ (∃ f, arg5.view.loc (c : Thread nD τ) ↦[arg5.view.set]{fullShare} arg5.view.writes (Elt F) f LO) ∗ owns (c : Thread nD τ) arg6 fullShare wc) -∗ K ⟨⟩))
          ⊢ wp frame (wpE (defs₀ (F := F)) Variants.none c none) E (cc0__router_body i arg2 harg2 arg3 harg3 arg4 harg4 arg5 harg5 arg6 harg6) K } := by
  refine ⟨?_, fun E K => ?run⟩
  case run =>
    simp only [cc0__router_body_eq_skeleton]; unfold cc0__router_body_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hs | exact hl | exact hh)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; isplitr; · ipureintro; exact harg6.read_unread _
    iexact HS

end Cert.Kernel.Router

end
-- ==== Proof.K.RunHi.lean ====
/-
  The body at a second-half point: the scratch holds the cast weights and the output tile what the first-half point of
  the same tile left there; the body loads the token tile, the second half of the scratch's columns and the output
  tile, and stores the tile plus the half product back.
-/
import proofs.«170584_g68101001445530_cont_9to1c4b_284_18_alg».proof.Proof.K.RunLo

set_option maxRecDepth 16384

noncomputable section

namespace Cert.Kernel.Router

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces a second-half point's store leaves in the output tile — over what the tile held, `o` — with the body's
    triple; the scratch is handed back at the contents it came with. -/
noncomputable def runHi (c : Dev nD) (i : grid0.Coords) (arg2 : Memref sig .tc .vmem S2048x2048 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S2048x512 .f32) (harg5 : arg5.IsWhole) (arg6 : Memref sig .tc .vmem S512x4096 .bf16) (harg6 : arg6.IsWhole) (hs : ¬atStart i) (hl : ¬atLo i) (hh : atHi i)
    (x : Vec F S2048x2048 .f32) (w : Vec F S512x4096 .f32) (b : Vec F S1x512 .f32) (o : Vec F S2048x512 .f32) (wc : Vec F S512x4096 .bf16) :
    { LO : List (View.Piece (Elt F) S2048x512 .f32) //
      ∀ (E : Set ℕ) (K : PUnit → sProp 𝕄),
        iprop(owns (c : Thread nD τ) arg2 fullShare x ∗ owns (c : Thread nD τ) arg3 fullShare w ∗ owns (c : Thread nD τ) arg4 fullShare b ∗ owns (c : Thread nD τ) arg5 fullShare o ∗ owns (c : Thread nD τ) arg6 fullShare wc
            ∗ (iprop(owns (c : Thread nD τ) arg2 fullShare x ∗ owns (c : Thread nD τ) arg3 fullShare w ∗ owns (c : Thread nD τ) arg4 fullShare b ∗ (∃ f, arg5.view.loc (c : Thread nD τ) ↦[arg5.view.set]{fullShare} arg5.view.writes (Elt F) f LO) ∗ owns (c : Thread nD τ) arg6 fullShare wc) -∗ K ⟨⟩))
          ⊢ wp frame (wpE (defs₀ (F := F)) Variants.none c none) E (cc0__router_body i arg2 harg2 arg3 harg3 arg4 harg4 arg5 harg5 arg6 harg6) K } := by
  refine ⟨?_, fun E K => ?run⟩
  case run =>
    simp only [cc0__router_body_eq_skeleton]; unfold cc0__router_body_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hs | exact hl | exact hh)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; isplitr; · ipureintro; exact harg6.read_unread _
    iexact HS

end Cert.Kernel.Router

end
-- ==== Proof.K.Data.lean ====
/-
  What the output tile's staging buffer and the scratch hold after the body at each grid point, and the proof data of
  the pipeline over it. After the start point the scratch holds the start point's store and keeps it for the rest of
  the run (no later point writes it); the output tile after a first-half point holds that point's store, and after a
  second-half point the store made over what the first-half point of the same tile left.
-/
import proofs.«170584_g68101001445530_cont_9to1c4b_284_18_alg».proof.Proof.K.RunHi

set_option maxRecDepth 16384

noncomputable section

namespace Cert.Kernel.Router

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of point leaves: its pieces read back -/

/-- The start point's store covers the output tile (one store of the whole tile). -/
theorem coverStart_out (c : Dev nD) (i : grid0.Coords) (arg2 : Memref sig .tc .vmem S2048x2048 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S2048x512 .f32) (harg5 : arg5.IsWhole) (arg6 : Memref sig .tc .vmem S512x4096 .bf16) (harg6 : arg6.IsWhole) (hs : atStart i) (hl : atLo i) (hh : ¬atHi i) (x : Vec F S2048x2048 .f32) (w : Vec F S512x4096 .f32) (b : Vec F S1x512 .f32) (y : S2048x512.Idx) :
    ∃ pc ∈ (runStart c i arg2 harg2 arg3 harg3 arg4 harg4 arg5 harg5 arg6 harg6 hs hl hh x w b).1, y ∈ pc.1.set :=
  View.cover_of_tiledL (runStart c i arg2 harg2 arg3 harg3 arg4 harg4 arg5 harg5 arg6 harg6 hs hl hh x w b).1 S2048x512.size (by sl_kernel_rfl) y
/-- What the start point leaves in the output tile. -/
def outStart (c : Dev nD) (i : grid0.Coords) (arg2 : Memref sig .tc .vmem S2048x2048 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S2048x512 .f32) (harg5 : arg5.IsWhole) (arg6 : Memref sig .tc .vmem S512x4096 .bf16) (harg6 : arg6.IsWhole) (hs : atStart i) (hl : atLo i) (hh : ¬atHi i) (x : Vec F S2048x2048 .f32) (w : Vec F S512x4096 .f32) (b : Vec F S1x512 .f32) : Vec F S2048x512 .f32 :=
  oV.read (Elt F) (oV.writes (Elt F) oV.junk (runStart c i arg2 harg2 arg3 harg3 arg4 harg4 arg5 harg5 arg6 harg6 hs hl hh x w b).1)
/-- The start point's store covers the scratch (one store of the whole buffer). -/
theorem coverStart_cast (c : Dev nD) (i : grid0.Coords) (arg2 : Memref sig .tc .vmem S2048x2048 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S2048x512 .f32) (harg5 : arg5.IsWhole) (arg6 : Memref sig .tc .vmem S512x4096 .bf16) (harg6 : arg6.IsWhole) (hs : atStart i) (hl : atLo i) (hh : ¬atHi i) (x : Vec F S2048x2048 .f32) (w : Vec F S512x4096 .f32) (b : Vec F S1x512 .f32) (y : S512x4096.Idx) :
    ∃ pc ∈ (runStart c i arg2 harg2 arg3 harg3 arg4 harg4 arg5 harg5 arg6 harg6 hs hl hh x w b).2.1, y ∈ pc.1.set :=
  View.cover_of_tiledL (runStart c i arg2 harg2 arg3 harg3 arg4 harg4 arg5 harg5 arg6 harg6 hs hl hh x w b).2.1 S512x4096.size (by sl_kernel_rfl) y
/-- What the start point leaves in the scratch: the cast weights. -/
def castStart (c : Dev nD) (i : grid0.Coords) (arg2 : Memref sig .tc .vmem S2048x2048 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S2048x512 .f32) (harg5 : arg5.IsWhole) (arg6 : Memref sig .tc .vmem S512x4096 .bf16) (harg6 : arg6.IsWhole) (hs : atStart i) (hl : atLo i) (hh : ¬atHi i) (x : Vec F S2048x2048 .f32) (w : Vec F S512x4096 .f32) (b : Vec F S1x512 .f32) : Vec F S512x4096 .bf16 :=
  castV.read (Elt F) (castV.writes (Elt F) castV.junk (runStart c i arg2 harg2 arg3 harg3 arg4 harg4 arg5 harg5 arg6 harg6 hs hl hh x w b).2.1)

/-- A later first-half point's store covers the output tile. -/
theorem coverLo (c : Dev nD) (i : grid0.Coords) (arg2 : Memref sig .tc .vmem S2048x2048 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S2048x512 .f32) (harg5 : arg5.IsWhole) (arg6 : Memref sig .tc .vmem S512x4096 .bf16) (harg6 : arg6.IsWhole) (hs : ¬atStart i) (hl : atLo i) (hh : ¬atHi i) (x : Vec F S2048x2048 .f32) (w : Vec F S512x4096 .f32) (b : Vec F S1x512 .f32) (wc : Vec F S512x4096 .bf16) (y : S2048x512.Idx) :
    ∃ pc ∈ (runLo c i arg2 harg2 arg3 harg3 arg4 harg4 arg5 harg5 arg6 harg6 hs hl hh x w b wc).1, y ∈ pc.1.set :=
  View.cover_of_tiledL (runLo c i arg2 harg2 arg3 harg3 arg4 harg4 arg5 harg5 arg6 harg6 hs hl hh x w b wc).1 S2048x512.size (by sl_kernel_rfl) y
/-- What a later first-half point leaves in the output tile. -/
def outLo (c : Dev nD) (i : grid0.Coords) (arg2 : Memref sig .tc .vmem S2048x2048 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S2048x512 .f32) (harg5 : arg5.IsWhole) (arg6 : Memref sig .tc .vmem S512x4096 .bf16) (harg6 : arg6.IsWhole) (hs : ¬atStart i) (hl : atLo i) (hh : ¬atHi i) (x : Vec F S2048x2048 .f32) (w : Vec F S512x4096 .f32) (b : Vec F S1x512 .f32) (wc : Vec F S512x4096 .bf16) : Vec F S2048x512 .f32 :=
  oV.read (Elt F) (oV.writes (Elt F) oV.junk (runLo c i arg2 harg2 arg3 harg3 arg4 harg4 arg5 harg5 arg6 harg6 hs hl hh x w b wc).1)

/-- A second-half point's store covers the output tile. -/
theorem coverHi (c : Dev nD) (i : grid0.Coords) (arg2 : Memref sig .tc .vmem S2048x2048 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S2048x512 .f32) (harg5 : arg5.IsWhole) (arg6 : Memref sig .tc .vmem S512x4096 .bf16) (harg6 : arg6.IsWhole) (hs : ¬atStart i) (hl : ¬atLo i) (hh : atHi i) (x : Vec F S2048x2048 .f32) (w : Vec F S512x4096 .f32) (b : Vec F S1x512 .f32) (o : Vec F S2048x512 .f32) (wc : Vec F S512x4096 .bf16) (y : S2048x512.Idx) :
    ∃ pc ∈ (runHi c i arg2 harg2 arg3 harg3 arg4 harg4 arg5 harg5 arg6 harg6 hs hl hh x w b o wc).1, y ∈ pc.1.set :=
  View.cover_of_tiledL (runHi c i arg2 harg2 arg3 harg3 arg4 harg4 arg5 harg5 arg6 harg6 hs hl hh x w b o wc).1 S2048x512.size (by sl_kernel_rfl) y
/-- What a second-half point leaves in the output tile, over the tile's contents `o` when it starts. -/
def outHi (c : Dev nD) (i : grid0.Coords) (arg2 : Memref sig .tc .vmem S2048x2048 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S2048x512 .f32) (harg5 : arg5.IsWhole) (arg6 : Memref sig .tc .vmem S512x4096 .bf16) (harg6 : arg6.IsWhole) (hs : ¬atStart i) (hl : ¬atLo i) (hh : atHi i) (x : Vec F S2048x2048 .f32) (w : Vec F S512x4096 .f32) (b : Vec F S1x512 .f32) (o : Vec F S2048x512 .f32) (wc : Vec F S512x4096 .bf16) : Vec F S2048x512 .f32 :=
  oV.read (Elt F) (oV.writes (Elt F) oV.junk (runHi c i arg2 harg2 arg3 harg3 arg4 harg4 arg5 harg5 arg6 harg6 hs hl hh x w b o wc).1)

/-! ## Point by point -/

/-- What the output tile's staging buffer (first component) and the scratch (second) hold after the body at position `n`. -/
def held (c : Dev nD) : (n : ℕ) → n < cfg0.N → Vec F S2048x512 .f32 × Vec F S512x4096 .bf16
  | 0, hn =>
    (outStart c (grid0.coords ⟨0, hn⟩) (xM ⟨0, hn⟩) (xM_whole ⟨0, hn⟩) (wM ⟨0, hn⟩) (wM_whole ⟨0, hn⟩) (bM ⟨0, hn⟩) (bM_whole ⟨0, hn⟩) (oM ⟨0, hn⟩) (oM_whole ⟨0, hn⟩) castM (Memref.isWhole_whole _) ((atStart_iff ⟨0, hn⟩).mpr rfl) ((atLo_iff ⟨0, hn⟩).mpr (Nat.zero_mod _)) (fun h => by have h' := (atHi_iff ⟨0, hn⟩).mp h; dsimp only at h'; omega) (iblk m c 0 ⟨0, hn⟩) (iblk m c 1 ⟨0, hn⟩) (iblk m c 2 ⟨0, hn⟩),
     castStart c (grid0.coords ⟨0, hn⟩) (xM ⟨0, hn⟩) (xM_whole ⟨0, hn⟩) (wM ⟨0, hn⟩) (wM_whole ⟨0, hn⟩) (bM ⟨0, hn⟩) (bM_whole ⟨0, hn⟩) (oM ⟨0, hn⟩) (oM_whole ⟨0, hn⟩) castM (Memref.isWhole_whole _) ((atStart_iff ⟨0, hn⟩).mpr rfl) ((atLo_iff ⟨0, hn⟩).mpr (Nat.zero_mod _)) (fun h => by have h' := (atHi_iff ⟨0, hn⟩).mp h; dsimp only at h'; omega) (iblk m c 0 ⟨0, hn⟩) (iblk m c 1 ⟨0, hn⟩) (iblk m c 2 ⟨0, hn⟩))
  | n + 1, hn =>
    if h1 : (n + 1) % 2 = 0 then
      (outLo c (grid0.coords ⟨n + 1, hn⟩) (xM ⟨n + 1, hn⟩) (xM_whole ⟨n + 1, hn⟩) (wM ⟨n + 1, hn⟩) (wM_whole ⟨n + 1, hn⟩) (bM ⟨n + 1, hn⟩) (bM_whole ⟨n + 1, hn⟩) (oM ⟨n + 1, hn⟩) (oM_whole ⟨n + 1, hn⟩) castM (Memref.isWhole_whole _) (fun h => by have h' := (atStart_iff ⟨n + 1, hn⟩).mp h; dsimp only at h'; omega) ((atLo_iff ⟨n + 1, hn⟩).mpr h1) (fun h => by have h' := (atHi_iff ⟨n + 1, hn⟩).mp h; dsimp only at h'; omega) (iblk m c 0 ⟨n + 1, hn⟩) (iblk m c 1 ⟨n + 1, hn⟩) (iblk m c 2 ⟨n + 1, hn⟩) (held c n (Nat.lt_of_succ_lt hn)).2,
       (held c n (Nat.lt_of_succ_lt hn)).2)
    else
      (outHi c (grid0.coords ⟨n + 1, hn⟩) (xM ⟨n + 1, hn⟩) (xM_whole ⟨n + 1, hn⟩) (wM ⟨n + 1, hn⟩) (wM_whole ⟨n + 1, hn⟩) (bM ⟨n + 1, hn⟩) (bM_whole ⟨n + 1, hn⟩) (oM ⟨n + 1, hn⟩) (oM_whole ⟨n + 1, hn⟩) castM (Memref.isWhole_whole _) (fun h => by have h' := (atStart_iff ⟨n + 1, hn⟩).mp h; dsimp only at h'; omega) (fun h => h1 ((atLo_iff ⟨n + 1, hn⟩).mp h)) ((atHi_iff ⟨n + 1, hn⟩).mpr (by dsimp only; omega)) (iblk m c 0 ⟨n + 1, hn⟩) (iblk m c 1 ⟨n + 1, hn⟩) (iblk m c 2 ⟨n + 1, hn⟩) (held c n (Nat.lt_of_succ_lt hn)).1 (held c n (Nat.lt_of_succ_lt hn)).2,
       (held c n (Nat.lt_of_succ_lt hn)).2)

/-- At the start point. -/
theorem held_start (c : Dev nD) (t : Fin cfg0.N) (h0 : t.val = 0) :
    held m c t.val t.isLt =
      (outStart c (grid0.coords t) (xM t) (xM_whole t) (wM t) (wM_whole t) (bM t) (bM_whole t) (oM t) (oM_whole t) castM (Memref.isWhole_whole _) ((atStart_iff t).mpr h0) ((atLo_iff t).mpr (by omega)) (fun h => by have h' := (atHi_iff t).mp h; omega) (iblk m c 0 t) (iblk m c 1 t) (iblk m c 2 t),
       castStart c (grid0.coords t) (xM t) (xM_whole t) (wM t) (wM_whole t) (bM t) (bM_whole t) (oM t) (oM_whole t) castM (Memref.isWhole_whole _) ((atStart_iff t).mpr h0) ((atLo_iff t).mpr (by omega)) (fun h => by have h' := (atHi_iff t).mp h; omega) (iblk m c 0 t) (iblk m c 1 t) (iblk m c 2 t)) := by
  obtain ⟨n, hn⟩ := t
  cases n with
  | zero => exact rfl
  | succ n => exact absurd h0 (Nat.succ_ne_zero n)

/-- At a later first-half point: its store, over the scratch the point before left; the scratch is kept. -/
theorem held_lo (c : Dev nD) (t : Fin cfg0.N) (h0 : t.val ≠ 0) (h1 : t.val % 2 = 0) :
    held m c t.val t.isLt =
      (outLo c (grid0.coords t) (xM t) (xM_whole t) (wM t) (wM_whole t) (bM t) (bM_whole t) (oM t) (oM_whole t) castM (Memref.isWhole_whole _) (fun h => h0 ((atStart_iff t).mp h)) ((atLo_iff t).mpr h1) (fun h => by have h' := (atHi_iff t).mp h; omega) (iblk m c 0 t) (iblk m c 1 t) (iblk m c 2 t) (held m c (t.val - 1) (Nat.lt_of_le_of_lt (Nat.sub_le _ _) t.isLt)).2,
       (held m c (t.val - 1) (Nat.lt_of_le_of_lt (Nat.sub_le _ _) t.isLt)).2) := by
  obtain ⟨n, hn⟩ := t
  cases n with
  | zero => exact absurd rfl h0
  | succ n => exact (dif_pos h1).trans rfl

/-- At a second-half point: its store, over the output tile and the scratch the point before left; the scratch is kept. -/
theorem held_hi (c : Dev nD) (t : Fin cfg0.N) (h1 : t.val % 2 = 1) :
    held m c t.val t.isLt =
      (outHi c (grid0.coords t) (xM t) (xM_whole t) (wM t) (wM_whole t) (bM t) (bM_whole t) (oM t) (oM_whole t) castM (Memref.isWhole_whole _) (fun h => by have h' := (atStart_iff t).mp h; omega) (fun h => by have h' := (atLo_iff t).mp h; omega) ((atHi_iff t).mpr h1) (iblk m c 0 t) (iblk m c 1 t) (iblk m c 2 t) (held m c (t.val - 1) (Nat.lt_of_le_of_lt (Nat.sub_le _ _) t.isLt)).1 (held m c (t.val - 1) (Nat.lt_of_le_of_lt (Nat.sub_le _ _) t.isLt)).2,
       (held m c (t.val - 1) (Nat.lt_of_le_of_lt (Nat.sub_le _ _) t.isLt)).2) := by
  obtain ⟨n, hn⟩ := t
  cases n with
  | zero => exact (by exfalso; (try dsimp only at h1); omega)
  | succ n => exact (dif_neg (by dsimp only at h1; omega)).trans rfl

/-! ## The region's invariant and the proof data -/

/-- Before position `n`: before the first point the scratch holds anything; afterwards what the point before left. -/
def scratchInv (c : Dev nD) : (n : ℕ) → n ≤ cfg0.N → sProp 𝕄
  | 0, _ => Pipeline.ΦA spec0 c
  | n + 1, hn => iprop(iprop(owns (c : Thread nD τ) castM fullShare ((held m c n hn).2)) ∗ (∃ r, prngReg c r))

theorem scratchInv_zero (c : Dev nD) (n : ℕ) (h : n ≤ cfg0.N) (hz : n = 0) : scratchInv m c n h = Pipeline.ΦA spec0 c := by
  subst hz; rfl
theorem scratchInv_succ (c : Dev nD) (n : ℕ) (hn : n < cfg0.N) :
    scratchInv m c (n + 1) hn = iprop(iprop(owns (c : Thread nD τ) castM fullShare ((held m c n hn).2)) ∗ (∃ r, prngReg c r)) := rfl
theorem scratchInv_pos (c : Dev nD) (n : ℕ) (h : n ≤ cfg0.N) (hz : n ≠ 0) :
    scratchInv m c n h = iprop(iprop(owns (c : Thread nD τ) castM fullShare ((held m c (n - 1) (by omega)).2)) ∗ (∃ r, prngReg c r)) := by
  cases n with
  | zero => exact absurd rfl hz
  | succ n => rfl

/-- The proof data of the pipeline on core `c`: the arrays as the region finds them; after the body at point `t` each
    input's buffer at its block and the output tile's at `held`; the invariant the scratch's contents; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (held m c t.val t.isLt).1
  Φ t := scratchInv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = scratchInv m c t.val (Nat.le_of_lt t.isLt) := by
  dsimp only [dats]; simp only [Fin.coe_castSucc]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_b (c : Dev nD) (t : Fin cfg0.N) : (dats m 0 c).after 2 t = iblk m c 2 t := by dsimp only [dats]
theorem after_out (c : Dev nD) (t : Fin cfg0.N) : (dats m 0 c).after 3 t = (held m c t.val t.isLt).1 := by dsimp only [dats]

/-- Each input's current staging buffer holds its block at every point, fetched there or not. -/
theorem before_x (c : Dev nD) (t : Fin cfg0.N) (d) : (dats m 0 c).before 0 t d = iblk m c 0 t :=
  before0_0_of m (dats m 0 c) (A_eq m c 0) (after_x m c) t d
theorem before_w (c : Dev nD) (t : Fin cfg0.N) (d) : (dats m 0 c).before 1 t d = iblk m c 1 t :=
  before0_1_of m (dats m 0 c) (A_eq m c 1) (after_w m c) t d
theorem before_b (c : Dev nD) (t : Fin cfg0.N) (d) : (dats m 0 c).before 2 t d = iblk m c 2 t :=
  before0_2_of m (dats m 0 c) (A_eq m c 2) (after_b m c) t d
/-- At a second-half point the output tile's staging buffer holds what the first-half point before it left: the tile
    is written back only after second-half points, the window is live everywhere and its blocks are whole. -/
theorem before_out_hi (c : Dev nD) (t : Fin cfg0.N) (h1 : t.val % 2 = 1) (d) :
    (dats m 0 c).before 3 t d = (held m c (t.val - 1) (Nat.lt_of_le_of_lt (Nat.sub_le _ _) t.isLt)).1 := by
  rw [Dat.before_out_kept _ 3 rfl t (by omega) (Bool.eq_false_iff.mpr fun h => by have := (flush0_3 _).mp h; dsimp only at this; omega)
    live_out (fun _ _ => rfl)]
  dsimp only [dats]

end Cert.Kernel.Router

end
-- ==== Proof.K.Body.lean ====
/-
  The body obligation of the pipeline, the run of @main, and the frame. At each point the closed forms of the three
  conditions say which kind of point it is; the inputs' staging buffers hold their blocks; at a second-half point the
  output tile holds what the point before left; the invariant hands the body the scratch at what the point before
  left (at anything at the start) and takes it back at this point's contents.
-/
import proofs.«170584_g68101001445530_cont_9to1c4b_284_18_alg».proof.Proof.K.Data

set_option maxRecDepth 16384

noncomputable section

namespace Cert.Kernel.Router

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (xM t) fullShare ((dats m 0 c).before 0 t d))
    ∗ (∃ d, owns (c : Thread nD τ) (wM t) fullShare ((dats m 0 c).before 1 t d))
    ∗ (∃ d, owns (c : Thread nD τ) (bM t) fullShare ((dats m 0 c).before 2 t d))
    ∗ (∃ d, owns (c : Thread nD τ) (oM t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w, before_b]
  rw [show (dats m 0 c).owesAt () t.succ = (dats m 0 c).owesAt () t.castSucc from rfl]
  rw [show (dats m 0 c).Φ t.succ = scratchInv m c (t.val + 1) t.isLt from rfl, scratchInv_succ]
  have hN : t.val < 32 := lt_of_lt_of_eq t.isLt (show cfg0.N = 32 from N_0)
  rw [show (dats m 0 c).leavesExact 0 t = owns (c : Thread nD τ) (xM t) fullShare ((dats m 0 c).after 0 t) from by
      unfold Dat.leavesExact; rw [live_x t], after_x]
  rw [show (dats m 0 c).leavesExact 1 t = owns (c : Thread nD τ) (wM t) fullShare ((dats m 0 c).after 1 t) from by
      unfold Dat.leavesExact; rw [live_w t], after_w]
  rw [show (dats m 0 c).leavesExact 2 t = owns (c : Thread nD τ) (bM t) fullShare ((dats m 0 c).after 2 t) from by
      unfold Dat.leavesExact; rw [live_b t], after_b]
  rw [show (dats m 0 c).leavesExact 3 t = owns (c : Thread nD τ) (oM t) fullShare ((dats m 0 c).after 3 t) from by
      unfold Dat.leavesExact; rw [live_out_at t], after_out]
  by_cases h0 : t.val = 0
  · -- the start point
    rw [held_start m c t h0]
    unfold outStart castStart; (try dsimp only)
    rw [inv_castSucc m c t, scratchInv_zero m c _ _ h0, anyScratch_eq]
    iintro ⟨⟨HS, Hg⟩, Ho, ⟨%d0, H0⟩, ⟨%d1, H1⟩, ⟨%d2, H2⟩, ⟨%d3, H3⟩⟩
    iapply ((runStart c (grid0.coords t) _ _ _ _ _ _ _ _ _ _ ((atStart_iff t).mpr h0) ((atLo_iff t).mpr (by omega)) (fun h => by have h' := (atHi_iff t).mp h; omega) (iblk m c 0 t) (iblk m c 1 t) (iblk m c 2 t)).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hg]
    · isplitl [HS]
      · unfold owns; iexists _; isplitr
        swap; · iexact HS
        ipureintro; exact View.read_writes_of_cover _ _ _ _ _ (coverStart_cast c _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverStart_out c _ _ _ _ _ _ _ _ _ _ _ _ _ _ _ _ _)
  · by_cases h1 : t.val % 2 = 0
    · -- a later first-half point
      rw [held_lo m c t h0 h1]
      unfold outLo; (try dsimp only)
      rw [inv_castSucc m c t, scratchInv_pos m c _ _ h0]
      iintro ⟨⟨HS, Hg⟩, Ho, ⟨%d0, H0⟩, ⟨%d1, H1⟩, ⟨%d2, H2⟩, ⟨%d3, H3⟩⟩
      iapply ((runLo c (grid0.coords t) _ _ _ _ _ _ _ _ _ _ (fun h => h0 ((atStart_iff t).mp h)) ((atLo_iff t).mpr h1) (fun h => by have h' := (atHi_iff t).mp h; omega) (iblk m c 0 t) (iblk m c 1 t) (iblk m c 2 t) _).2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, HS⟩
      isplitl [HS Hg]
      · isplitl [HS]
        · iexact HS
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLo c _ _ _ _ _ _ _ _ _ _ _ _ _ _ _ _ _ _)
    · -- a second-half point
      have h1' : t.val % 2 = 1 := by omega
      rw [held_hi m c t h1']
      simp only [before_out_hi m c t h1']
      unfold outHi; (try dsimp only)
      rw [inv_castSucc m c t, scratchInv_pos m c _ _ h0]
      iintro ⟨⟨HS, Hg⟩, Ho, ⟨%d0, H0⟩, ⟨%d1, H1⟩, ⟨%d2, H2⟩, ⟨%d3, H3⟩⟩
      iapply ((runHi c (grid0.coords t) _ _ _ _ _ _ _ _ _ _ (fun h => h0 ((atStart_iff t).mp h)) (fun h => h1 ((atLo_iff t).mp h)) ((atHi_iff t).mpr h1') (iblk m c 0 t) (iblk m c 1 t) (iblk m c 2 t) _ _).2 Set.univ _)
      isplitl [H0]; · iexact H0
      isplitl [H1]; · iexact H1
      isplitl [H2]; · iexact H2
      isplitl [H3]; · iexact H3
      isplitl [HS]; · iexact HS
      iintro ⟨H0, H1, H2, ⟨%e3, H3⟩, HS⟩
      isplitl [HS Hg]
      · isplitl [HS]
        · iexact HS
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverHi c _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem inv_in (c : Dev nD) : Pipeline.ΦA spec0 c ⊢ (dats m 0 c).Φ 0 := by
  rw [show (dats m 0 c).Φ 0 = scratchInv m c 0 (Nat.zero_le _) from rfl, scratchInv_zero m c 0 _ rfl]
  try exact Idealize.SL.BI.Entails.refl _

/-- After the last point the invariant gives the scratch back at some contents. -/
theorem inv_out (c : Dev nD) : (dats m 0 c).Φ (Fin.last cfg0.N) ⊢ Pipeline.ΦA spec0 c := by
  rw [show (dats m 0 c).Φ (Fin.last cfg0.N) = scratchInv m c (Fin.last cfg0.N).val (Nat.le_of_lt_succ (Fin.last cfg0.N).isLt) from rfl,
    scratchInv_pos m c _ _ (by rw [Fin.val_last]; have : cfg0.N = 32 := N_0; omega), anyScratch_eq]
  iintro ⟨HS, Hg⟩
  isplitl [HS]
  · iexists _; iexact HS
  iexact Hg

set_option backward.isDefEq.respectTransparency.types false in
/-- Every weakly fair execution of @main on the TensorCores terminates, and every final state has every array of the
    pipeline at what the write-backs of the proof data's tiles make of it and every other unscoped buffer as the
    region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Router

end
-- ==== Proof.KI.Cases.lean ====
/-
  The grid of the router kernel and the three kinds of point on it. The grid is 16 token tiles by 2 halves of the
  hidden axis, walked in order: point t is tile t / 2, half t % 2. The body branches three times on the coordinates:
  at the very first point (tile 0, half 0) it casts the weight matrix into its scratch buffer; at a first-half point
  it stores the half product plus the bias into the output tile; at a second-half point it adds the half product to
  what the output tile already holds. So there are three kinds of point: the start (point 0), the other first-half
  points (even t > 0) and the second-half points (odd t). Here: the three conditions in closed form over the grid,
  the output window live at every coordinate, and the staging memrefs the body is called with.
-/
import proofs.«170584_g68101001445530_cont_9to1c4b_284_18_alg».proof.Proof.Gen.KernelIdeal.Frame
import proofs.«170584_g68101001445530_cont_9to1c4b_284_18_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Router

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions -/

/-- Both coordinates are zero (the body's first branch, as its scalar chain computes it). -/
abbrev atStart (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The point is in the first half of the hidden axis (the body's second branch). -/
abbrev atLo (i : grid0.Coords) : Prop := k0_cond2 i = 1#1
/-- The point is in the second half (the body's third branch). -/
abbrev atHi (i : grid0.Coords) : Prop := k0_cond3 i = 1#1

theorem atStart_iff : ∀ t : Fin cfg0.N, atStart (grid0.coords t) ↔ t.val = 0 :=
  (by decide +kernel : ∀ t : Fin grid0.N, atStart (grid0.coords t) ↔ t.val = 0)
theorem atLo_iff : ∀ t : Fin cfg0.N, atLo (grid0.coords t) ↔ t.val % 2 = 0 :=
  (by decide +kernel : ∀ t : Fin grid0.N, atLo (grid0.coords t) ↔ t.val % 2 = 0)
theorem atHi_iff : ∀ t : Fin cfg0.N, atHi (grid0.coords t) ↔ t.val % 2 = 1 :=
  (by decide +kernel : ∀ t : Fin grid0.N, atHi (grid0.coords t) ↔ t.val % 2 = 1)

/-! ## No window is ever idle -/

theorem live_x : ∀ t : Fin cfg0.N, cfg0.idle 0 (grid0.coords t) = false := by decide +kernel
theorem live_w : ∀ t : Fin cfg0.N, cfg0.idle 1 (grid0.coords t) = false := by decide +kernel
theorem live_b : ∀ t : Fin cfg0.N, cfg0.idle 2 (grid0.coords t) = false := by decide +kernel
/-- The output tile is stored into at every coordinate: the second coordinate is 0 or 1, and one of the two stores is taken. -/
theorem live_out : ∀ i : grid0.Coords, cfg0.idle 3 i = false := by decide +kernel
theorem live_out_at (t : Fin cfg0.N) : cfg0.idle 3 (grid0.coords t) = false := live_out _

/-! ## What the body is called with -/

/-- Each window's current staging memref at point `t`, and that it is a whole buffer. -/
abbrev xM (t : Fin cfg0.N) : Memref sig .tc .vmem S2048x2048 .f32 := win0_0.stage (cfg0.slots t 0)
abbrev xM_whole (t : Fin cfg0.N) : (xM t).IsWhole := hstage0_0 ((cfg0.slots t 0).cast nbuf0_0)
abbrev wM (t : Fin cfg0.N) : Memref sig .tc .vmem S512x4096 .f32 := win0_1.stage (cfg0.slots t 1)
abbrev wM_whole (t : Fin cfg0.N) : (wM t).IsWhole := hstage0_1 ((cfg0.slots t 1).cast nbuf0_1)
abbrev bM (t : Fin cfg0.N) : Memref sig .tc .vmem S1x512 .f32 := win0_2.stage (cfg0.slots t 2)
abbrev bM_whole (t : Fin cfg0.N) : (bM t).IsWhole := hstage0_2 ((cfg0.slots t 2).cast nbuf0_2)
abbrev oM (t : Fin cfg0.N) : Memref sig .tc .vmem S2048x512 .f32 := win0_3.stage (cfg0.slots t 3)
abbrev oM_whole (t : Fin cfg0.N) : (oM t).IsWhole := hstage0_3 ((cfg0.slots t 3).cast nbuf0_3)
/-- The scratch that keeps the cast weights: a whole buffer of the kernel's own. -/
abbrev castM : Memref sig .tc .vmem S512x4096 .bf16 := Memref.whole cc0_scratch0
/-- One staging buffer of the output window and the scratch, as views through which contents are stated. -/
abbrev oV : View sig .tc .vmem S2048x512 .f32 := (Memref.whole cc0_stg3_0 : Memref sig .tc .vmem S2048x512 .f32).view
abbrev castV : View sig .tc .vmem S512x4096 .bf16 := castM.view

/-- The region's invariant before anything is known of the scratch: the scratch owned at some contents, and the
    generator register at some state. -/
theorem anyScratch_eq (c : Dev nD) :
    (Pipeline.ΦA spec0 c : sProp 𝕄)
      = iprop(iprop((∃ d, owns (c : Thread nD τ) castM fullShare d)) ∗ (∃ r, prngReg c r)) := by
  unfold Pipeline.ΦA; rw [scopedRest0_eq]; simp only [castM, owns_whole]; try rfl

end Cert.KernelIdeal.Router

end
-- ==== Proof.KI.RunStart.lean ====
/-
  The body at the start point (tile 0, first half): it loads the weight tile, stores its cast into the scratch, loads
  the token tile and the first half of the scratch's columns, and stores the half product plus the bias into the
  output tile. Nothing is assumed of the scratch or of the output tile beforehand (both are read once, dead loads).
-/
import proofs.«170584_g68101001445530_cont_9to1c4b_284_18_alg».proof.Proof.KI.Cases

set_option maxRecDepth 16384

noncomputable section

namespace Cert.KernelIdeal.Router

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the start point's stores leave in the output tile and in the scratch, with the body's triple. -/
noncomputable def runStart (c : Dev nD) (i : grid0.Coords) (arg2 : Memref sig .tc .vmem S2048x2048 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S2048x512 .f32) (harg5 : arg5.IsWhole) (arg6 : Memref sig .tc .vmem S512x4096 .bf16) (harg6 : arg6.IsWhole) (hs : atStart i) (hl : atLo i) (hh : ¬atHi i)
    (x : Vec F S2048x2048 .f32) (w : Vec F S512x4096 .f32) (b : Vec F S1x512 .f32) :
    Σ' (LO : List (View.Piece (Elt F) S2048x512 .f32)), { LC : List (View.Piece (Elt F) S512x4096 .bf16) //
      ∀ (E : Set ℕ) (K : PUnit → sProp 𝕄),
        iprop(owns (c : Thread nD τ) arg2 fullShare x ∗ owns (c : Thread nD τ) arg3 fullShare w ∗ owns (c : Thread nD τ) arg4 fullShare b ∗ (∃ d, owns (c : Thread nD τ) arg5 fullShare d) ∗ (∃ d, owns (c : Thread nD τ) arg6 fullShare d)
            ∗ (iprop(owns (c : Thread nD τ) arg2 fullShare x ∗ owns (c : Thread nD τ) arg3 fullShare w ∗ owns (c : Thread nD τ) arg4 fullShare b ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LC)) -∗ K ⟨⟩))
          ⊢ wp frame (wpE (defs₀ (F := F)) Variants.none c none) E (cc0__router_body i arg2 harg2 arg3 harg3 arg4 harg4 arg5 harg5 arg6 harg6) K } := by
  refine ⟨?_, ?_, fun E K => ?run⟩
  case run =>
    simp only [cc0__router_body_eq_skeleton]; unfold cc0__router_body_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hs | exact hl | exact hh)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Router

end
-- ==== Proof.KI.RunLo.lean ====
/-
  The body at a first-half point after the start: the scratch already holds the cast weights; the body loads the token
  tile and the first half of the scratch's columns and stores the half product plus the bias into the output tile,
  whose earlier contents it reads once without using them.
-/
import proofs.«170584_g68101001445530_cont_9to1c4b_284_18_alg».proof.Proof.KI.RunStart

set_option maxRecDepth 16384

noncomputable section

namespace Cert.KernelIdeal.Router

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces a later first-half point's store leaves in the output tile, with the body's triple; the scratch is
    read, not written, and handed back at the contents it came with. -/
noncomputable def runLo (c : Dev nD) (i : grid0.Coords) (arg2 : Memref sig .tc .vmem S2048x2048 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S2048x512 .f32) (harg5 : arg5.IsWhole) (arg6 : Memref sig .tc .vmem S512x4096 .bf16) (harg6 : arg6.IsWhole) (hs : ¬atStart i) (hl : atLo i) (hh : ¬atHi i)
    (x : Vec F S2048x2048 .f32) (w : Vec F S512x4096 .f32) (b : Vec F S1x512 .f32) (wc : Vec F S512x4096 .bf16) :
    { LO : List (View.Piece (Elt F) S2048x512 .f32) //
      ∀ (E : Set ℕ) (K : PUnit → sProp 𝕄),
        iprop(owns (c : Thread nD τ) arg2 fullShare x ∗ owns (c : Thread nD τ) arg3 fullShare w ∗ owns (c : Thread nD τ) arg4 fullShare b ∗ (∃ d, owns (c : Thread nD τ) arg5 fullShare d) ∗ owns (c : Thread nD τ) arg6 fullShare wc
            ∗ (iprop(owns (c : Thread nD τ) arg2 fullShare x ∗ owns (c : Thread nD τ) arg3 fullShare w ∗ owns (c : Thread nD τ) arg4 fullShare b ∗ (∃ f, arg5.view.loc (c : Thread nD τ) ↦[arg5.view.set]{fullShare} arg5.view.writes (Elt F) f LO) ∗ owns (c : Thread nD τ) arg6 fullShare wc) -∗ K ⟨⟩))
          ⊢ wp frame (wpE (defs₀ (F := F)) Variants.none c none) E (cc0__router_body i arg2 harg2 arg3 harg3 arg4 harg4 arg5 harg5 arg6 harg6) K } := by
  refine ⟨?_, fun E K => ?run⟩
  case run =>
    simp only [cc0__router_body_eq_skeleton]; unfold cc0__router_body_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hs | exact hl | exact hh)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; isplitr; · ipureintro; exact harg6.read_unread _
    iexact HS

end Cert.KernelIdeal.Router

end
-- ==== Proof.KI.RunHi.lean ====
/-
  The body at a second-half point: the scratch holds the cast weights and the output tile what the first-half point of
  the same tile left there; the body loads the token tile, the second half of the scratch's columns and the output
  tile, and stores the tile plus the half product back.
-/
import proofs.«170584_g68101001445530_cont_9to1c4b_284_18_alg».proof.Proof.KI.RunLo

set_option maxRecDepth 16384

noncomputable section

namespace Cert.KernelIdeal.Router

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces a second-half point's store leaves in the output tile — over what the tile held, `o` — with the body's
    triple; the scratch is handed back at the contents it came with. -/
noncomputable def runHi (c : Dev nD) (i : grid0.Coords) (arg2 : Memref sig .tc .vmem S2048x2048 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S2048x512 .f32) (harg5 : arg5.IsWhole) (arg6 : Memref sig .tc .vmem S512x4096 .bf16) (harg6 : arg6.IsWhole) (hs : ¬atStart i) (hl : ¬atLo i) (hh : atHi i)
    (x : Vec F S2048x2048 .f32) (w : Vec F S512x4096 .f32) (b : Vec F S1x512 .f32) (o : Vec F S2048x512 .f32) (wc : Vec F S512x4096 .bf16) :
    { LO : List (View.Piece (Elt F) S2048x512 .f32) //
      ∀ (E : Set ℕ) (K : PUnit → sProp 𝕄),
        iprop(owns (c : Thread nD τ) arg2 fullShare x ∗ owns (c : Thread nD τ) arg3 fullShare w ∗ owns (c : Thread nD τ) arg4 fullShare b ∗ owns (c : Thread nD τ) arg5 fullShare o ∗ owns (c : Thread nD τ) arg6 fullShare wc
            ∗ (iprop(owns (c : Thread nD τ) arg2 fullShare x ∗ owns (c : Thread nD τ) arg3 fullShare w ∗ owns (c : Thread nD τ) arg4 fullShare b ∗ (∃ f, arg5.view.loc (c : Thread nD τ) ↦[arg5.view.set]{fullShare} arg5.view.writes (Elt F) f LO) ∗ owns (c : Thread nD τ) arg6 fullShare wc) -∗ K ⟨⟩))
          ⊢ wp frame (wpE (defs₀ (F := F)) Variants.none c none) E (cc0__router_body i arg2 harg2 arg3 harg3 arg4 harg4 arg5 harg5 arg6 harg6) K } := by
  refine ⟨?_, fun E K => ?run⟩
  case run =>
    simp only [cc0__router_body_eq_skeleton]; unfold cc0__router_body_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hs | exact hl | exact hh)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; isplitr; · ipureintro; exact harg6.read_unread _
    iexact HS

end Cert.KernelIdeal.Router

end
-- ==== Proof.KI.Data.lean ====
/-
  What the output tile's staging buffer and the scratch hold after the body at each grid point, and the proof data of
  the pipeline over it. After the start point the scratch holds the start point's store and keeps it for the rest of
  the run (no later point writes it); the output tile after a first-half point holds that point's store, and after a
  second-half point the store made over what the first-half point of the same tile left.
-/
import proofs.«170584_g68101001445530_cont_9to1c4b_284_18_alg».proof.Proof.KI.RunHi

set_option maxRecDepth 16384

noncomputable section

namespace Cert.KernelIdeal.Router

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of point leaves: its pieces read back -/

/-- The start point's store covers the output tile (one store of the whole tile). -/
theorem coverStart_out (c : Dev nD) (i : grid0.Coords) (arg2 : Memref sig .tc .vmem S2048x2048 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S2048x512 .f32) (harg5 : arg5.IsWhole) (arg6 : Memref sig .tc .vmem S512x4096 .bf16) (harg6 : arg6.IsWhole) (hs : atStart i) (hl : atLo i) (hh : ¬atHi i) (x : Vec F S2048x2048 .f32) (w : Vec F S512x4096 .f32) (b : Vec F S1x512 .f32) (y : S2048x512.Idx) :
    ∃ pc ∈ (runStart c i arg2 harg2 arg3 harg3 arg4 harg4 arg5 harg5 arg6 harg6 hs hl hh x w b).1, y ∈ pc.1.set :=
  View.cover_of_tiledL (runStart c i arg2 harg2 arg3 harg3 arg4 harg4 arg5 harg5 arg6 harg6 hs hl hh x w b).1 S2048x512.size (by sl_kernel_rfl) y
/-- What the start point leaves in the output tile. -/
def outStart (c : Dev nD) (i : grid0.Coords) (arg2 : Memref sig .tc .vmem S2048x2048 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S2048x512 .f32) (harg5 : arg5.IsWhole) (arg6 : Memref sig .tc .vmem S512x4096 .bf16) (harg6 : arg6.IsWhole) (hs : atStart i) (hl : atLo i) (hh : ¬atHi i) (x : Vec F S2048x2048 .f32) (w : Vec F S512x4096 .f32) (b : Vec F S1x512 .f32) : Vec F S2048x512 .f32 :=
  oV.read (Elt F) (oV.writes (Elt F) oV.junk (runStart c i arg2 harg2 arg3 harg3 arg4 harg4 arg5 harg5 arg6 harg6 hs hl hh x w b).1)
/-- The start point's store covers the scratch (one store of the whole buffer). -/
theorem coverStart_cast (c : Dev nD) (i : grid0.Coords) (arg2 : Memref sig .tc .vmem S2048x2048 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S2048x512 .f32) (harg5 : arg5.IsWhole) (arg6 : Memref sig .tc .vmem S512x4096 .bf16) (harg6 : arg6.IsWhole) (hs : atStart i) (hl : atLo i) (hh : ¬atHi i) (x : Vec F S2048x2048 .f32) (w : Vec F S512x4096 .f32) (b : Vec F S1x512 .f32) (y : S512x4096.Idx) :
    ∃ pc ∈ (runStart c i arg2 harg2 arg3 harg3 arg4 harg4 arg5 harg5 arg6 harg6 hs hl hh x w b).2.1, y ∈ pc.1.set :=
  View.cover_of_tiledL (runStart c i arg2 harg2 arg3 harg3 arg4 harg4 arg5 harg5 arg6 harg6 hs hl hh x w b).2.1 S512x4096.size (by sl_kernel_rfl) y
/-- What the start point leaves in the scratch: the cast weights. -/
def castStart (c : Dev nD) (i : grid0.Coords) (arg2 : Memref sig .tc .vmem S2048x2048 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S2048x512 .f32) (harg5 : arg5.IsWhole) (arg6 : Memref sig .tc .vmem S512x4096 .bf16) (harg6 : arg6.IsWhole) (hs : atStart i) (hl : atLo i) (hh : ¬atHi i) (x : Vec F S2048x2048 .f32) (w : Vec F S512x4096 .f32) (b : Vec F S1x512 .f32) : Vec F S512x4096 .bf16 :=
  castV.read (Elt F) (castV.writes (Elt F) castV.junk (runStart c i arg2 harg2 arg3 harg3 arg4 harg4 arg5 harg5 arg6 harg6 hs hl hh x w b).2.1)

/-- A later first-half point's store covers the output tile. -/
theorem coverLo (c : Dev nD) (i : grid0.Coords) (arg2 : Memref sig .tc .vmem S2048x2048 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S2048x512 .f32) (harg5 : arg5.IsWhole) (arg6 : Memref sig .tc .vmem S512x4096 .bf16) (harg6 : arg6.IsWhole) (hs : ¬atStart i) (hl : atLo i) (hh : ¬atHi i) (x : Vec F S2048x2048 .f32) (w : Vec F S512x4096 .f32) (b : Vec F S1x512 .f32) (wc : Vec F S512x4096 .bf16) (y : S2048x512.Idx) :
    ∃ pc ∈ (runLo c i arg2 harg2 arg3 harg3 arg4 harg4 arg5 harg5 arg6 harg6 hs hl hh x w b wc).1, y ∈ pc.1.set :=
  View.cover_of_tiledL (runLo c i arg2 harg2 arg3 harg3 arg4 harg4 arg5 harg5 arg6 harg6 hs hl hh x w b wc).1 S2048x512.size (by sl_kernel_rfl) y
/-- What a later first-half point leaves in the output tile. -/
def outLo (c : Dev nD) (i : grid0.Coords) (arg2 : Memref sig .tc .vmem S2048x2048 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S2048x512 .f32) (harg5 : arg5.IsWhole) (arg6 : Memref sig .tc .vmem S512x4096 .bf16) (harg6 : arg6.IsWhole) (hs : ¬atStart i) (hl : atLo i) (hh : ¬atHi i) (x : Vec F S2048x2048 .f32) (w : Vec F S512x4096 .f32) (b : Vec F S1x512 .f32) (wc : Vec F S512x4096 .bf16) : Vec F S2048x512 .f32 :=
  oV.read (Elt F) (oV.writes (Elt F) oV.junk (runLo c i arg2 harg2 arg3 harg3 arg4 harg4 arg5 harg5 arg6 harg6 hs hl hh x w b wc).1)

/-- A second-half point's store covers the output tile. -/
theorem coverHi (c : Dev nD) (i : grid0.Coords) (arg2 : Memref sig .tc .vmem S2048x2048 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S2048x512 .f32) (harg5 : arg5.IsWhole) (arg6 : Memref sig .tc .vmem S512x4096 .bf16) (harg6 : arg6.IsWhole) (hs : ¬atStart i) (hl : ¬atLo i) (hh : atHi i) (x : Vec F S2048x2048 .f32) (w : Vec F S512x4096 .f32) (b : Vec F S1x512 .f32) (o : Vec F S2048x512 .f32) (wc : Vec F S512x4096 .bf16) (y : S2048x512.Idx) :
    ∃ pc ∈ (runHi c i arg2 harg2 arg3 harg3 arg4 harg4 arg5 harg5 arg6 harg6 hs hl hh x w b o wc).1, y ∈ pc.1.set :=
  View.cover_of_tiledL (runHi c i arg2 harg2 arg3 harg3 arg4 harg4 arg5 harg5 arg6 harg6 hs hl hh x w b o wc).1 S2048x512.size (by sl_kernel_rfl) y
/-- What a second-half point leaves in the output tile, over the tile's contents `o` when it starts. -/
def outHi (c : Dev nD) (i : grid0.Coords) (arg2 : Memref sig .tc .vmem S2048x2048 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S2048x512 .f32) (harg5 : arg5.IsWhole) (arg6 : Memref sig .tc .vmem S512x4096 .bf16) (harg6 : arg6.IsWhole) (hs : ¬atStart i) (hl : ¬atLo i) (hh : atHi i) (x : Vec F S2048x2048 .f32) (w : Vec F S512x4096 .f32) (b : Vec F S1x512 .f32) (o : Vec F S2048x512 .f32) (wc : Vec F S512x4096 .bf16) : Vec F S2048x512 .f32 :=
  oV.read (Elt F) (oV.writes (Elt F) oV.junk (runHi c i arg2 harg2 arg3 harg3 arg4 harg4 arg5 harg5 arg6 harg6 hs hl hh x w b o wc).1)

/-! ## Point by point -/

/-- What the output tile's staging buffer (first component) and the scratch (second) hold after the body at position `n`. -/
def held (c : Dev nD) : (n : ℕ) → n < cfg0.N → Vec F S2048x512 .f32 × Vec F S512x4096 .bf16
  | 0, hn =>
    (outStart c (grid0.coords ⟨0, hn⟩) (xM ⟨0, hn⟩) (xM_whole ⟨0, hn⟩) (wM ⟨0, hn⟩) (wM_whole ⟨0, hn⟩) (bM ⟨0, hn⟩) (bM_whole ⟨0, hn⟩) (oM ⟨0, hn⟩) (oM_whole ⟨0, hn⟩) castM (Memref.isWhole_whole _) ((atStart_iff ⟨0, hn⟩).mpr rfl) ((atLo_iff ⟨0, hn⟩).mpr (Nat.zero_mod _)) (fun h => by have h' := (atHi_iff ⟨0, hn⟩).mp h; dsimp only at h'; omega) (iblk m c 0 ⟨0, hn⟩) (iblk m c 1 ⟨0, hn⟩) (iblk m c 2 ⟨0, hn⟩),
     castStart c (grid0.coords ⟨0, hn⟩) (xM ⟨0, hn⟩) (xM_whole ⟨0, hn⟩) (wM ⟨0, hn⟩) (wM_whole ⟨0, hn⟩) (bM ⟨0, hn⟩) (bM_whole ⟨0, hn⟩) (oM ⟨0, hn⟩) (oM_whole ⟨0, hn⟩) castM (Memref.isWhole_whole _) ((atStart_iff ⟨0, hn⟩).mpr rfl) ((atLo_iff ⟨0, hn⟩).mpr (Nat.zero_mod _)) (fun h => by have h' := (atHi_iff ⟨0, hn⟩).mp h; dsimp only at h'; omega) (iblk m c 0 ⟨0, hn⟩) (iblk m c 1 ⟨0, hn⟩) (iblk m c 2 ⟨0, hn⟩))
  | n + 1, hn =>
    if h1 : (n + 1) % 2 = 0 then
      (outLo c (grid0.coords ⟨n + 1, hn⟩) (xM ⟨n + 1, hn⟩) (xM_whole ⟨n + 1, hn⟩) (wM ⟨n + 1, hn⟩) (wM_whole ⟨n + 1, hn⟩) (bM ⟨n + 1, hn⟩) (bM_whole ⟨n + 1, hn⟩) (oM ⟨n + 1, hn⟩) (oM_whole ⟨n + 1, hn⟩) castM (Memref.isWhole_whole _) (fun h => by have h' := (atStart_iff ⟨n + 1, hn⟩).mp h; dsimp only at h'; omega) ((atLo_iff ⟨n + 1, hn⟩).mpr h1) (fun h => by have h' := (atHi_iff ⟨n + 1, hn⟩).mp h; dsimp only at h'; omega) (iblk m c 0 ⟨n + 1, hn⟩) (iblk m c 1 ⟨n + 1, hn⟩) (iblk m c 2 ⟨n + 1, hn⟩) (held c n (Nat.lt_of_succ_lt hn)).2,
       (held c n (Nat.lt_of_succ_lt hn)).2)
    else
      (outHi c (grid0.coords ⟨n + 1, hn⟩) (xM ⟨n + 1, hn⟩) (xM_whole ⟨n + 1, hn⟩) (wM ⟨n + 1, hn⟩) (wM_whole ⟨n + 1, hn⟩) (bM ⟨n + 1, hn⟩) (bM_whole ⟨n + 1, hn⟩) (oM ⟨n + 1, hn⟩) (oM_whole ⟨n + 1, hn⟩) castM (Memref.isWhole_whole _) (fun h => by have h' := (atStart_iff ⟨n + 1, hn⟩).mp h; dsimp only at h'; omega) (fun h => h1 ((atLo_iff ⟨n + 1, hn⟩).mp h)) ((atHi_iff ⟨n + 1, hn⟩).mpr (by dsimp only; omega)) (iblk m c 0 ⟨n + 1, hn⟩) (iblk m c 1 ⟨n + 1, hn⟩) (iblk m c 2 ⟨n + 1, hn⟩) (held c n (Nat.lt_of_succ_lt hn)).1 (held c n (Nat.lt_of_succ_lt hn)).2,
       (held c n (Nat.lt_of_succ_lt hn)).2)

/-- At the start point. -/
theorem held_start (c : Dev nD) (t : Fin cfg0.N) (h0 : t.val = 0) :
    held m c t.val t.isLt =
      (outStart c (grid0.coords t) (xM t) (xM_whole t) (wM t) (wM_whole t) (bM t) (bM_whole t) (oM t) (oM_whole t) castM (Memref.isWhole_whole _) ((atStart_iff t).mpr h0) ((atLo_iff t).mpr (by omega)) (fun h => by have h' := (atHi_iff t).mp h; omega) (iblk m c 0 t) (iblk m c 1 t) (iblk m c 2 t),
       castStart c (grid0.coords t) (xM t) (xM_whole t) (wM t) (wM_whole t) (bM t) (bM_whole t) (oM t) (oM_whole t) castM (Memref.isWhole_whole _) ((atStart_iff t).mpr h0) ((atLo_iff t).mpr (by omega)) (fun h => by have h' := (atHi_iff t).mp h; omega) (iblk m c 0 t) (iblk m c 1 t) (iblk m c 2 t)) := by
  obtain ⟨n, hn⟩ := t
  cases n with
  | zero => exact rfl
  | succ n => exact absurd h0 (Nat.succ_ne_zero n)

/-- At a later first-half point: its store, over the scratch the point before left; the scratch is kept. -/
theorem held_lo (c : Dev nD) (t : Fin cfg0.N) (h0 : t.val ≠ 0) (h1 : t.val % 2 = 0) :
    held m c t.val t.isLt =
      (outLo c (grid0.coords t) (xM t) (xM_whole t) (wM t) (wM_whole t) (bM t) (bM_whole t) (oM t) (oM_whole t) castM (Memref.isWhole_whole _) (fun h => h0 ((atStart_iff t).mp h)) ((atLo_iff t).mpr h1) (fun h => by have h' := (atHi_iff t).mp h; omega) (iblk m c 0 t) (iblk m c 1 t) (iblk m c 2 t) (held m c (t.val - 1) (Nat.lt_of_le_of_lt (Nat.sub_le _ _) t.isLt)).2,
       (held m c (t.val - 1) (Nat.lt_of_le_of_lt (Nat.sub_le _ _) t.isLt)).2) := by
  obtain ⟨n, hn⟩ := t
  cases n with
  | zero => exact absurd rfl h0
  | succ n => exact (dif_pos h1).trans rfl

/-- At a second-half point: its store, over the output tile and the scratch the point before left; the scratch is kept. -/
theorem held_hi (c : Dev nD) (t : Fin cfg0.N) (h1 : t.val % 2 = 1) :
    held m c t.val t.isLt =
      (outHi c (grid0.coords t) (xM t) (xM_whole t) (wM t) (wM_whole t) (bM t) (bM_whole t) (oM t) (oM_whole t) castM (Memref.isWhole_whole _) (fun h => by have h' := (atStart_iff t).mp h; omega) (fun h => by have h' := (atLo_iff t).mp h; omega) ((atHi_iff t).mpr h1) (iblk m c 0 t) (iblk m c 1 t) (iblk m c 2 t) (held m c (t.val - 1) (Nat.lt_of_le_of_lt (Nat.sub_le _ _) t.isLt)).1 (held m c (t.val - 1) (Nat.lt_of_le_of_lt (Nat.sub_le _ _) t.isLt)).2,
       (held m c (t.val - 1) (Nat.lt_of_le_of_lt (Nat.sub_le _ _) t.isLt)).2) := by
  obtain ⟨n, hn⟩ := t
  cases n with
  | zero => exact (by exfalso; (try dsimp only at h1); omega)
  | succ n => exact (dif_neg (by dsimp only at h1; omega)).trans rfl

/-! ## The region's invariant and the proof data -/

/-- Before position `n`: before the first point the scratch holds anything; afterwards what the point before left. -/
def scratchInv (c : Dev nD) : (n : ℕ) → n ≤ cfg0.N → sProp 𝕄
  | 0, _ => Pipeline.ΦA spec0 c
  | n + 1, hn => iprop(iprop(owns (c : Thread nD τ) castM fullShare ((held m c n hn).2)) ∗ (∃ r, prngReg c r))

theorem scratchInv_zero (c : Dev nD) (n : ℕ) (h : n ≤ cfg0.N) (hz : n = 0) : scratchInv m c n h = Pipeline.ΦA spec0 c := by
  subst hz; rfl
theorem scratchInv_succ (c : Dev nD) (n : ℕ) (hn : n < cfg0.N) :
    scratchInv m c (n + 1) hn = iprop(iprop(owns (c : Thread nD τ) castM fullShare ((held m c n hn).2)) ∗ (∃ r, prngReg c r)) := rfl
theorem scratchInv_pos (c : Dev nD) (n : ℕ) (h : n ≤ cfg0.N) (hz : n ≠ 0) :
    scratchInv m c n h = iprop(iprop(owns (c : Thread nD τ) castM fullShare ((held m c (n - 1) (by omega)).2)) ∗ (∃ r, prngReg c r)) := by
  cases n with
  | zero => exact absurd rfl hz
  | succ n => rfl

/-- The proof data of the pipeline on core `c`: the arrays as the region finds them; after the body at point `t` each
    input's buffer at its block and the output tile's at `held`; the invariant the scratch's contents; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (held m c t.val t.isLt).1
  Φ t := scratchInv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = scratchInv m c t.val (Nat.le_of_lt t.isLt) := by
  dsimp only [dats]; simp only [Fin.coe_castSucc]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_b (c : Dev nD) (t : Fin cfg0.N) : (dats m 0 c).after 2 t = iblk m c 2 t := by dsimp only [dats]
theorem after_out (c : Dev nD) (t : Fin cfg0.N) : (dats m 0 c).after 3 t = (held m c t.val t.isLt).1 := by dsimp only [dats]

/-- Each input's current staging buffer holds its block at every point, fetched there or not. -/
theorem before_x (c : Dev nD) (t : Fin cfg0.N) (d) : (dats m 0 c).before 0 t d = iblk m c 0 t :=
  before0_0_of m (dats m 0 c) (A_eq m c 0) (after_x m c) t d
theorem before_w (c : Dev nD) (t : Fin cfg0.N) (d) : (dats m 0 c).before 1 t d = iblk m c 1 t :=
  before0_1_of m (dats m 0 c) (A_eq m c 1) (after_w m c) t d
theorem before_b (c : Dev nD) (t : Fin cfg0.N) (d) : (dats m 0 c).before 2 t d = iblk m c 2 t :=
  before0_2_of m (dats m 0 c) (A_eq m c 2) (after_b m c) t d
/-- At a second-half point the output tile's staging buffer holds what the first-half point before it left: the tile
    is written back only after second-half points, the window is live everywhere and its blocks are whole. -/
theorem before_out_hi (c : Dev nD) (t : Fin cfg0.N) (h1 : t.val % 2 = 1) (d) :
    (dats m 0 c).before 3 t d = (held m c (t.val - 1) (Nat.lt_of_le_of_lt (Nat.sub_le _ _) t.isLt)).1 := by
  rw [Dat.before_out_kept _ 3 rfl t (by omega) (Bool.eq_false_iff.mpr fun h => by have := (flush0_3 _).mp h; dsimp only at this; omega)
    live_out (fun _ _ => rfl)]
  dsimp only [dats]

end Cert.KernelIdeal.Router

end
-- ==== Proof.Value.Pieces.lean ====
/-
  What each kind of point leaves, as the body's pure payloads of what it loaded. The start point leaves the cast of the
  weight tile in the scratch; a first-half point leaves in the output tile the half product of the token tile with the
  first 2048 columns of the cast weights, plus the bias row; a second-half point leaves the output tile's earlier
  contents plus the half product with the last 2048 columns. At the start point the columns are read from the scratch
  just after the cast was stored there, so they are columns of that cast.
-/
import proofs.«170584_g68101001445530_cont_9to1c4b_284_18_alg».proof.Proof.KI.Data
import Idealize.ShloMosaic.Lib.Pipeline.Value

set_option maxRecDepth 16384

noncomputable section

namespace Cert.KernelIdeal.Router

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Both offsets zero, however spelt. -/
theorem zero_off : (![0, 0] : Fin 2 → Nat) = fun _ => 0 :=
  funext fun a => by match a with | ⟨0, _⟩ => rfl | ⟨1, _⟩ => rfl

/-- The 2048 columns of the cast weights a point multiplies by: the first 2048 at a first-half point, the last 2048 at
    a second-half point (the column offset is 2048 times the point's second coordinate). -/
def wHalf (i : grid0.Coords) (wc : Vec F S512x4096 .bf16) : Vec F S512x2048 .bf16 :=
  View.ld wc (Rect.unit (s := S512x4096) (k0_off1 i) S512x2048.size (k0_off1_inb i))

theorem castStart_eq (c : Dev nD) (i : grid0.Coords) (arg2 : Memref sig .tc .vmem S2048x2048 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S2048x512 .f32) (harg5 : arg5.IsWhole) (arg6 : Memref sig .tc .vmem S512x4096 .bf16) (harg6 : arg6.IsWhole) (hs : atStart i) (hl : atLo i) (hh : ¬atHi i) (x : Vec F S2048x2048 .f32) (w : Vec F S512x4096 .f32) (b : Vec F S1x512 .f32) :
    castStart c i arg2 harg2 arg3 harg3 arg4 harg4 arg5 harg5 arg6 harg6 hs hl hh x w b = k0_pay1 w := by
  unfold castStart
  rw [View.read_writes_eq_canon _ _ _ (coverStart_cast c i arg2 harg2 arg3 harg3 arg4 harg4 arg5 harg5 arg6 harg6 hs hl hh x w b)]
  unfold runStart; dsimp only; sl_unfold_words
  rw [View.canon_unit_zero zero_off]
  simp only [View.readAt_eq_ld, harg3.read_unread, View.ld_unit_zero (S := S512x4096) zero_off]

theorem outStart_eq (c : Dev nD) (i : grid0.Coords) (arg2 : Memref sig .tc .vmem S2048x2048 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S2048x512 .f32) (harg5 : arg5.IsWhole) (arg6 : Memref sig .tc .vmem S512x4096 .bf16) (harg6 : arg6.IsWhole) (hs : atStart i) (hl : atLo i) (hh : ¬atHi i) (x : Vec F S2048x2048 .f32) (w : Vec F S512x4096 .f32) (b : Vec F S1x512 .f32) :
    outStart c i arg2 harg2 arg3 harg3 arg4 harg4 arg5 harg5 arg6 harg6 hs hl hh x w b = k0_pay3 x (wHalf i (k0_pay1 w)) b := by
  unfold outStart
  rw [View.read_writes_eq_canon _ _ _ (coverStart_out c i arg2 harg2 arg3 harg3 arg4 harg4 arg5 harg5 arg6 harg6 hs hl hh x w b)]
  unfold runStart; dsimp only; sl_unfold_words
  rw [View.canon_unit_zero zero_off]
  simp only [View.readAt_eq_ld, harg2.read_unread, harg3.read_unread, harg4.read_unread, View.ld_unit_zero (S := S2048x2048) zero_off, View.ld_unit_zero (S := S512x4096) zero_off, View.ld_unit_zero (S := S1x512) zero_off]
  have hread : View.read (Elt F) arg6.view (arg6.view.writes (Elt F) arg6.view.junk
      [(⟨Rect.unit (s := S512x4096) ![0, 0] S512x4096.size inb_S512x4096_S512x4096_0_0, k0_pay1 w⟩ : View.Piece (Elt F) S512x4096 .bf16)]) = k0_pay1 w := by
    rw [View.read_writes_eq_canon _ _ _ (fun y => ⟨_, List.mem_singleton_self _, View.mem_set_unit_zero zero_off inb_S512x4096_S512x4096_0_0 y⟩),
      View.canon_unit_zero zero_off]
  exact congrArg (fun A => k0_pay3 x (View.ld A (Rect.unit (s := S512x4096) (k0_off1 i) S512x2048.size (k0_off1_inb i))) b) hread

theorem outLo_eq (c : Dev nD) (i : grid0.Coords) (arg2 : Memref sig .tc .vmem S2048x2048 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S2048x512 .f32) (harg5 : arg5.IsWhole) (arg6 : Memref sig .tc .vmem S512x4096 .bf16) (harg6 : arg6.IsWhole) (hs : ¬atStart i) (hl : atLo i) (hh : ¬atHi i) (x : Vec F S2048x2048 .f32) (w : Vec F S512x4096 .f32) (b : Vec F S1x512 .f32) (wc : Vec F S512x4096 .bf16) :
    outLo c i arg2 harg2 arg3 harg3 arg4 harg4 arg5 harg5 arg6 harg6 hs hl hh x w b wc = k0_pay3 x (wHalf i wc) b := by
  unfold outLo
  rw [View.read_writes_eq_canon _ _ _ (coverLo c i arg2 harg2 arg3 harg3 arg4 harg4 arg5 harg5 arg6 harg6 hs hl hh x w b wc)]
  unfold runLo; dsimp only; sl_unfold_words
  rw [View.canon_unit_zero zero_off]
  simp only [View.readAt_eq_ld, harg2.read_unread, harg4.read_unread, harg6.read_unread, View.ld_unit_zero (S := S2048x2048) zero_off, View.ld_unit_zero (S := S1x512) zero_off]
  rfl

theorem outHi_eq (c : Dev nD) (i : grid0.Coords) (arg2 : Memref sig .tc .vmem S2048x2048 .f32) (harg2 : arg2.IsWhole) (arg3 : Memref sig .tc .vmem S512x4096 .f32) (harg3 : arg3.IsWhole) (arg4 : Memref sig .tc .vmem S1x512 .f32) (harg4 : arg4.IsWhole) (arg5 : Memref sig .tc .vmem S2048x512 .f32) (harg5 : arg5.IsWhole) (arg6 : Memref sig .tc .vmem S512x4096 .bf16) (harg6 : arg6.IsWhole) (hs : ¬atStart i) (hl : ¬atLo i) (hh : atHi i) (x : Vec F S2048x2048 .f32) (w : Vec F S512x4096 .f32) (b : Vec F S1x512 .f32) (o : Vec F S2048x512 .f32) (wc : Vec F S512x4096 .bf16) :
    outHi c i arg2 harg2 arg3 harg3 arg4 harg4 arg5 harg5 arg6 harg6 hs hl hh x w b o wc = k0_pay4 x (wHalf i wc) o := by
  unfold outHi
  rw [View.read_writes_eq_canon _ _ _ (coverHi c i arg2 harg2 arg3 harg3 arg4 harg4 arg5 harg5 arg6 harg6 hs hl hh x w b o wc)]
  unfold runHi; dsimp only; sl_unfold_words
  rw [View.canon_unit_zero zero_off]
  simp only [View.readAt_eq_ld, harg2.read_unread, harg5.read_unread, harg6.read_unread, View.ld_unit_zero (S := S2048x2048) zero_off, View.ld_unit_zero (S := S2048x512) zero_off]
  rfl

end Cert.KernelIdeal.Router

end
-- ==== Proof.Value.Held.lean ====
/-
  What the scratch and the output tile hold after each point, in closed form. The scratch holds the cast of the weight
  array from the start point on: the start point stores it and no later point writes the scratch. So after a
  first-half point the output tile is that point's half product with the first 2048 columns of the cast weights plus
  the bias row, and after a second-half point it is that, plus the point's half product with the last 2048 columns.
-/
import proofs.«170584_g68101001445530_cont_9to1c4b_284_18_alg».proof.Proof.Value.Pieces

set_option maxRecDepth 16384

noncomputable section

namespace Cert.KernelIdeal.Router

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The input windows' blocks at a point, at their literal types. -/
abbrev xblk (c : Dev nD) (t : Fin cfg0.N) : Vec F S2048x2048 .f32 := iblk m c 0 t
abbrev wblk (c : Dev nD) (t : Fin cfg0.N) : Vec F S512x4096 .f32 := iblk m c 1 t
abbrev bblk (c : Dev nD) (t : Fin cfg0.N) : Vec F S1x512 .f32 := iblk m c 2 t

theorem N_pos : 0 < cfg0.N := by rw [show cfg0.N = 32 from N_0]; decide

/-- The cast weights: what the start point stores into the scratch. -/
def castW (c : Dev nD) : Vec F S512x4096 .bf16 := k0_pay1 (wblk m c ⟨0, N_pos⟩)

/-- After every point the scratch holds the cast weights. -/
theorem held_cast (c : Dev nD) : ∀ (n : ℕ) (hn : n < cfg0.N), (held m c n hn).2 = castW m c
  | 0, hn => by
    rw [held_start m c ⟨0, hn⟩ rfl]; dsimp only
    exact castStart_eq c (grid0.coords ⟨0, hn⟩) (xM ⟨0, hn⟩) (xM_whole ⟨0, hn⟩) (wM ⟨0, hn⟩) (wM_whole ⟨0, hn⟩) (bM ⟨0, hn⟩) (bM_whole ⟨0, hn⟩) (oM ⟨0, hn⟩) (oM_whole ⟨0, hn⟩) castM (Memref.isWhole_whole _) _ _ _ (iblk m c 0 ⟨0, hn⟩) (iblk m c 1 ⟨0, hn⟩) (iblk m c 2 ⟨0, hn⟩)
  | n + 1, hn => by
    by_cases h1 : (n + 1) % 2 = 0
    · rw [held_lo m c ⟨n + 1, hn⟩ (Nat.succ_ne_zero n) h1]; dsimp only
      exact held_cast c n _
    · rw [held_hi m c ⟨n + 1, hn⟩ (by dsimp only; omega)]; dsimp only
      exact held_cast c n _

/-- After a first-half point the output tile is the half product with the first columns plus the bias row. -/
theorem held_lo_out (c : Dev nD) (t : Fin cfg0.N) (h1 : t.val % 2 = 0) :
    (held m c t.val t.isLt).1 = k0_pay3 (xblk m c t) (wHalf (grid0.coords t) (castW m c)) (bblk m c t) := by
  by_cases h0 : t.val = 0
  · rw [held_start m c t h0]; dsimp only
    refine (outStart_eq c (grid0.coords t) (xM t) (xM_whole t) (wM t) (wM_whole t) (bM t) (bM_whole t) (oM t) (oM_whole t) castM (Memref.isWhole_whole _) _ _ _ (iblk m c 0 t) (iblk m c 1 t) (iblk m c 2 t)).trans ?_
    obtain rfl : t = ⟨0, N_pos⟩ := Fin.ext h0
    rfl
  · rw [held_lo m c t h0 h1]; dsimp only
    rw [held_cast m c]
    exact outLo_eq c (grid0.coords t) (xM t) (xM_whole t) (wM t) (wM_whole t) (bM t) (bM_whole t) (oM t) (oM_whole t) castM (Memref.isWhole_whole _) _ _ _ (iblk m c 0 t) (iblk m c 1 t) (iblk m c 2 t) (castW m c)

/-- After a second-half point it is what the point before left plus the half product with the last columns. -/
theorem held_hi_out (c : Dev nD) (t : Fin cfg0.N) (h1 : t.val % 2 = 1) :
    (held m c t.val t.isLt).1
      = k0_pay4 (xblk m c t) (wHalf (grid0.coords t) (castW m c)) (held m c (t.val - 1) (Nat.lt_of_le_of_lt (Nat.sub_le _ _) t.isLt)).1 := by
  rw [held_hi m c t h1]; dsimp only
  rw [held_cast m c]
  exact outHi_eq c (grid0.coords t) (xM t) (xM_whole t) (wM t) (wM_whole t) (bM t) (bM_whole t) (oM t) (oM_whole t) castM (Memref.isWhole_whole _) _ _ _ (iblk m c 0 t) (iblk m c 1 t) (iblk m c 2 t) _ (castW m c)

/-- The point before a second-half point: the first-half point of the same tile. -/
abbrev prev (t : Fin cfg0.N) : Fin cfg0.N := ⟨t.val - 1, Nat.lt_of_le_of_lt (Nat.sub_le _ _) t.isLt⟩

/-- So after a second-half point the output tile is the two half products and the bias row, added in this order. -/
theorem held_tile (c : Dev nD) (t : Fin cfg0.N) (h1 : t.val % 2 = 1) :
    (held m c t.val t.isLt).1
      = k0_pay4 (xblk m c t) (wHalf (grid0.coords t) (castW m c))
          (k0_pay3 (xblk m c (prev t)) (wHalf (grid0.coords (prev t)) (castW m c)) (bblk m c (prev t))) := by
  rw [held_hi_out m c t h1]
  exact congrArg (k0_pay4 (xblk m c t) (wHalf (grid0.coords t) (castW m c))) (held_lo_out m c (prev t) (by dsimp only; omega))

end Cert.KernelIdeal.Router

end
-- ==== Proof.Value.Blocks.lean ====
/-
  Each input window's block at a grid point, and the half of the cast weights a point multiplies by, read at an index
  off the argument arrays. The grid's 32 points are walked in order; point t is token tile t / 2 and half t % 2.
  The token window's block at point t is rows 2048 * (t / 2) ..., columns 2048 * (t % 2) ... of the token array; the
  weight window's block is the whole weight array at every point; the bias window's block is the whole bias row, which
  is the bias vector reshaped from [512] to [1, 512] before the region is entered; and the 2048 columns of the cast
  weights a point multiplies by start at column 2048 * (t % 2).
-/
import proofs.«170584_g68101001445530_cont_9to1c4b_284_18_alg».proof.Proof.Value.Pieces
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Router

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ)

/-- The token window's block index over the grid's 32 points: point t is token tile t / 2 and half t % 2. -/
theorem idx_x : ∀ t : Fin cfg0.N, win0_0.index t (0 : Fin 2) = t.val / 2 ∧ win0_0.index t (1 : Fin 2) = t.val % 2 :=
  (by decide +kernel : ∀ t : Fin grid0.N, _)
/-- The weight window stays at block (0, 0). -/
theorem idx_w : ∀ t : Fin cfg0.N, win0_1.index t (0 : Fin 2) = 0 ∧ win0_1.index t (1 : Fin 2) = 0 :=
  (by decide +kernel : ∀ t : Fin grid0.N, _)
/-- The bias window stays at block (0, 0). -/
theorem idx_b : ∀ t : Fin cfg0.N, win0_2.index t (0 : Fin 2) = 0 ∧ win0_2.index t (1 : Fin 2) = 0 :=
  (by decide +kernel : ∀ t : Fin grid0.N, _)
/-- The column offset of the cast weights' half is 2048 times the half's number. -/
theorem off_w : ∀ t : Fin cfg0.N, k0_off1 (grid0.coords t) (0 : Fin 2) = 0 ∧ k0_off1 (grid0.coords t) (1 : Fin 2) = 2048 * (t.val % 2) :=
  (by decide +kernel : ∀ t : Fin grid0.N, _)

/-- The half of the cast weights at point t, at (q, j), is the cast weights at (q, 2048 * (t % 2) + j). -/
theorem wHalf_apply (t : Fin cfg0.N) (wc : Vec F S512x4096 .bf16) (q : Fin 512) (j : Fin 2048) (k : Fin 4096) (hk : k.val = 2048 * (t.val % 2) + j.val) :
    wHalf (grid0.coords t) wc (ix2 q j) = wc (ix2 q k) := by
  obtain ⟨e0, e1⟩ := off_w t
  unfold wHalf
  show wc ((Rect.unit (s := S512x4096) (k0_off1 (grid0.coords t)) S512x2048.size (k0_off1_inb (grid0.coords t))).idx (ix2 q j)) = wc (ix2 q k)
  refine congrArg wc (funext fun a => Fin.ext ?_)
  match a with
  | ⟨0, _⟩ => show k0_off1 (grid0.coords t) (0 : Fin 2) + 1 * q.val = q.val; omega
  | ⟨1, _⟩ => show k0_off1 (grid0.coords t) (1 : Fin 2) + 1 * j.val = k.val; omega

/-- The token block at point t, at (p, j), is the token array at (2048 * (t / 2) + p, 2048 * (t % 2) + j). -/
theorem xblock_apply (c : Dev nD) (t : Fin cfg0.N) (p j : Fin 2048) (r : Fin 32768) (k : Fin 4096) (hr : r.val = 2048 * (t.val / 2) + p.val) (hk : k.val = 2048 * (t.val % 2) + j.val) :
    (iblk m c 0 t : Vec F S2048x2048 .f32) (ix2 p j) = (m ((c.tc : Thread nD τ).loc main_arg0) : Vec F S32768x4096 .f32) (ix2 r k) := by
  obtain ⟨e0, e1⟩ := idx_x t
  show V m c main_arg0 (((cfg0.win 0).blk t).view.emb (ix2 p j)) = m ((c.tc : Thread nD τ).loc main_arg0) (ix2 r k)
  rw [V_main_arg0]
  refine congrArg _ (funext fun a => Fin.ext ?_)
  match a with
  | ⟨0, _⟩ => show win0_0.index t (0 : Fin 2) * 2048 + 1 * p.val = r.val; omega
  | ⟨1, _⟩ => show win0_0.index t (1 : Fin 2) * 2048 + 1 * j.val = k.val; omega

/-- The weight block at every point is the whole weight array. -/
theorem wblock_eq (c : Dev nD) (t : Fin cfg0.N) :
    (iblk m c 1 t : Vec F S512x4096 .f32) = m ((c.tc : Thread nD τ).loc main_arg1) := by
  obtain ⟨e0, e1⟩ := idx_w t
  funext y
  show V m c main_arg1 (((cfg0.win 1).blk t).view.emb y) = m ((c.tc : Thread nD τ).loc main_arg1) y
  rw [V_main_arg1]
  refine congrArg _ (funext fun a => Fin.ext ?_)
  match a with
  | ⟨0, _⟩ => show win0_1.index t (0 : Fin 2) * 512 + 1 * (y 0).val = (y 0).val; omega
  | ⟨1, _⟩ => show win0_1.index t (1 : Fin 2) * 4096 + 1 * (y 1).val = (y 1).val; omega

/-- When the region is entered the bias row holds the bias vector, reshaped from [512] to [1, 512]. -/
theorem bias_entry (c : Dev nD) :
    (V m c main_v0 : S1x512.Idx → Elt F .f32) = shapeCast S1x512 (m ((c.tc : Thread nD τ).loc main_arg2) : Vec F S512 .f32) shapeCasts_S512_S1x512 := by
  dsimp only [Gen.V, Gen.hostOps0]
  after_results
  rfl

/-- The bias block at every point, at (0, q), is the bias vector at q. -/
theorem bblock_apply (c : Dev nD) (t : Fin cfg0.N) (q : Fin 512) :
    (iblk m c 2 t : Vec F S1x512 .f32) (ix2 (0 : Fin 1) q) = (m ((c.tc : Thread nD τ).loc main_arg2) : Vec F S512 .f32) (ix1 q) := by
  obtain ⟨e0, e1⟩ := idx_b t
  show (V m c main_v0 : S1x512.Idx → Elt F .f32) (((cfg0.win 2).blk t).view.emb (ix2 (0 : Fin 1) q)) = m ((c.tc : Thread nD τ).loc main_arg2) (ix1 q)
  refine (congrFun (bias_entry m c) _).trans ?_
  refine shapeCast_apply _ shapeCasts_S512_S1x512 _ (ix1 q) ?_
  rw [Shape.rowMajor_val_one, Shape.rowMajor_val_two]
  show q.val = (win0_2.index t (0 : Fin 2) * 1 + 1 * 0) * 512 + (win0_2.index t (1 : Fin 2) * 512 + 1 * q.val)
  omega

end Cert.KernelIdeal.Router

end
-- ==== Proof.Value.Payloads.lean ====
/-
  The kernel body's four pure payloads, read at an index, at the ideal values.
  Rounding to bfloat16 and a shape cast to the same shape are the identity on the extended reals, so:
    the weights' cast copy at (e, k) is the weights at (e, k);
    the matrix product into a zero accumulator at (p, q) is the sum over j < 2048 of x[p, j] * v[q, j]
      (both operands contract their second axis; the left rows index the result's rows, the right rows its columns);
    the first half adds the bias row, broadcast along the rows, to that sum;
    the second half adds that sum to what the output block already holds.
-/
import proofs.«170584_g68101001445530_cont_9to1c4b_284_18_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Router

open Cert.KernelIdeal Cert.KernelIdeal.Gen Idealize.ShloMosaic Idealize.ShloMosaic.ValueIdx

/-! ## The matrix product's operand indices, axis by axis -/

/-- The left operand's row is the result's row. -/
theorem lhs_mm_0 (i : S2048x512.Idx) (q : dot_S2048x2048_S512x2048_S2048x512_1_1_0_0_n_n.contr.Idx) :
    (dot_S2048x2048_S512x2048_S2048x512_1_1_0_0_n_n.lhsIdx i q 0).val = (i 0).val := by
  unfold DotDims.lhsIdx
  rw [dif_neg (show ¬(0 : Fin S2048x2048.rank) ∈ dot_S2048x2048_S512x2048_S2048x512_1_1_0_0_n_n.lhsBatch by decide), dif_pos (show (0 : Fin S2048x2048.rank) ∈ dot_S2048x2048_S512x2048_S2048x512_1_1_0_0_n_n.lhsNonContracting by decide)]
  rfl
/-- The left operand's column is the contraction position. -/
theorem lhs_mm_1 (i : S2048x512.Idx) (q : dot_S2048x2048_S512x2048_S2048x512_1_1_0_0_n_n.contr.Idx) :
    (dot_S2048x2048_S512x2048_S2048x512_1_1_0_0_n_n.lhsIdx i q 1).val = (q ⟨0, by decide⟩).val :=
  dot_S2048x2048_S512x2048_S2048x512_1_1_0_0_n_n.lhsIdx_val_of_single rfl i q
/-- The right operand's row is the result's column. -/
theorem rhs_mm_0 (i : S2048x512.Idx) (q : dot_S2048x2048_S512x2048_S2048x512_1_1_0_0_n_n.contr.Idx) :
    (dot_S2048x2048_S512x2048_S2048x512_1_1_0_0_n_n.rhsIdx i q 0).val = (i 1).val := by
  unfold DotDims.rhsIdx
  rw [dif_neg (show ¬(0 : Fin S512x2048.rank) ∈ dot_S2048x2048_S512x2048_S2048x512_1_1_0_0_n_n.rhsBatch by decide), dif_pos (show (0 : Fin S512x2048.rank) ∈ dot_S2048x2048_S512x2048_S2048x512_1_1_0_0_n_n.rhsNonContracting by decide)]
  rfl
/-- The right operand's column is the contraction position. -/
theorem rhs_mm_1 (i : S2048x512.Idx) (q : dot_S2048x2048_S512x2048_S2048x512_1_1_0_0_n_n.contr.Idx) :
    (dot_S2048x2048_S512x2048_S2048x512_1_1_0_0_n_n.rhsIdx i q 1).val = (q ⟨0, by decide⟩).val :=
  dot_S2048x2048_S512x2048_S2048x512_1_1_0_0_n_n.rhsIdx_val_of_single rfl i q

/-! ## The payloads at an index -/

/-- The weights' bfloat16 copy holds, at the ideal values, the weights themselves. -/
theorem castW_apply (w : Vec Ideal S512x4096 .f32) (e : Fin 512) (k : Fin 4096) :
    k0_pay1 (F := Ideal) w (ix2 e k) = w (ix2 e k) := by
  unfold k0_pay1
  exact congrFun (shapeCast_self (truncf (F := Ideal) .bf16 w bitsLt_bf16_f32) shapeCasts_S512x4096_S512x4096) (ix2 e k)

/-- The half-length product: row p of x against row q of v. -/
theorem half_apply (x : Vec Ideal S2048x2048 .f32) (v : Vec Ideal S512x2048 .bf16) (p : Fin 2048) (q : Fin 512) :
    k0_pay2 (F := Ideal) x v (ix2 p q) = ∑ j : Fin 2048, x (ix2 p j) * v (ix2 q j) := by
  unfold k0_pay2
  refine (Ideal.matmul_constant_zero_apply dot_S2048x2048_S512x2048_S2048x512_1_1_0_0_n_n none (truncf .bf16 x bitsLt_bf16_f32) v (ix2 p q)).trans ?_
  rw [← Equiv.sum_comp (contrEquiv1 dot_S2048x2048_S512x2048_S2048x512_1_1_0_0_n_n 2048 rfl rfl).symm]
  refine Finset.sum_congr rfl fun k _ => ?_
  have hk := contrEquiv1_symm_val dot_S2048x2048_S512x2048_S2048x512_1_1_0_0_n_n 2048 rfl rfl k
  have el : dot_S2048x2048_S512x2048_S2048x512_1_1_0_0_n_n.lhsIdx (ix2 p q) ((contrEquiv1 dot_S2048x2048_S512x2048_S2048x512_1_1_0_0_n_n 2048 rfl rfl).symm k) = ix2 p k := funext fun a => Fin.ext (by
    match a with
    | ⟨0, _⟩ => exact lhs_mm_0 _ _
    | ⟨1, _⟩ => exact (lhs_mm_1 _ _).trans hk)
  have er : dot_S2048x2048_S512x2048_S2048x512_1_1_0_0_n_n.rhsIdx (ix2 p q) ((contrEquiv1 dot_S2048x2048_S512x2048_S2048x512_1_1_0_0_n_n 2048 rfl rfl).symm k) = ix2 q k := funext fun a => Fin.ext (by
    match a with
    | ⟨0, _⟩ => exact rhs_mm_0 _ _
    | ⟨1, _⟩ => exact (rhs_mm_1 _ _).trans hk)
  rw [el, er]
  rfl

/-- The first half: the product plus the bias row read at column q. -/
theorem first_apply (x : Vec Ideal S2048x2048 .f32) (v : Vec Ideal S512x2048 .bf16) (b : Vec Ideal S1x512 .f32) (p : Fin 2048) (q : Fin 512) :
    k0_pay3 (F := Ideal) x v b (ix2 p q) = (∑ j : Fin 2048, x (ix2 p j) * v (ix2 q j)) + b (ix2 (0 : Fin 1) q) := by
  unfold k0_pay3
  refine (addf_apply _ _ _).trans ?_
  refine congrArg₂ (· + ·) (half_apply x v p q) ?_
  refine (broadcastTo_apply _ broadcasts_S1x512_S2048x512 (ix2 p q) (ix2 (0 : Fin 1) q) (fun a => match a with
    | ⟨0, _⟩ => by show 0 = if (1 : Nat) = 1 then 0 else p.val; rw [if_pos rfl]
    | ⟨1, _⟩ => by show q.val = if (512 : Nat) = 1 then 0 else q.val; rw [if_neg (by decide)])).trans ?_
  exact congrFun (shapeCast_self b shapeCasts_S1x512_S1x512) _

/-- The second half: what the output block holds plus the product. -/
theorem second_apply (x : Vec Ideal S2048x2048 .f32) (v : Vec Ideal S512x2048 .bf16) (o : Vec Ideal S2048x512 .f32) (p : Fin 2048) (q : Fin 512) :
    k0_pay4 (F := Ideal) x v o (ix2 p q) = o (ix2 p q) + ∑ j : Fin 2048, x (ix2 p j) * v (ix2 q j) := by
  unfold k0_pay4
  refine (addf_apply _ _ _).trans ?_
  exact congrArg₂ (· + ·) (congrFun (shapeCast_self o shapeCasts_S2048x512_S2048x512) _) (half_apply x v p q)

end Cert.KernelIdeal.Router

end
-- ==== Proof.KI.Body.lean ====
/-
  The body obligation of the pipeline, the run of @main, and the frame. At each point the closed forms of the three
  conditions say which kind of point it is; the inputs' staging buffers hold their blocks; at a second-half point the
  output tile holds what the point before left; the invariant hands the body the scratch at what the point before
  left (at anything at the start) and takes it back at this point's contents.
-/
import proofs.«170584_g68101001445530_cont_9to1c4b_284_18_alg».proof.Proof.KI.Data

set_option maxRecDepth 16384

noncomputable section

namespace Cert.KernelIdeal.Router

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (xM t) fullShare ((dats m 0 c).before 0 t d))
    ∗ (∃ d, owns (c : Thread nD τ) (wM t) fullShare ((dats m 0 c).before 1 t d))
    ∗ (∃ d, owns (c : Thread nD τ) (bM t) fullShare ((dats m 0 c).before 2 t d))
    ∗ (∃ d, owns (c : Thread nD τ) (oM t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w, before_b]
  rw [show (dats m 0 c).owesAt () t.succ = (dats m 0 c).owesAt () t.castSucc from rfl]
  rw [show (dats m 0 c).Φ t.succ = scratchInv m c (t.val + 1) t.isLt from rfl, scratchInv_succ]
  have hN : t.val < 32 := lt_of_lt_of_eq t.isLt (show cfg0.N = 32 from N_0)
  rw [show (dats m 0 c).leavesExact 0 t = owns (c : Thread nD τ) (xM t) fullShare ((dats m 0 c).after 0 t) from by
      unfold Dat.leavesExact; rw [live_x t], after_x]
  rw [show (dats m 0 c).leavesExact 1 t = owns (c : Thread nD τ) (wM t) fullShare ((dats m 0 c).after 1 t) from by
      unfold Dat.leavesExact; rw [live_w t], after_w]
  rw [show (dats m 0 c).leavesExact 2 t = owns (c : Thread nD τ) (bM t) fullShare ((dats m 0 c).after 2 t) from by
      unfold Dat.leavesExact; rw [live_b t], after_b]
  rw [show (dats m 0 c).leavesExact 3 t = owns (c : Thread nD τ) (oM t) fullShare ((dats m 0 c).after 3 t) from by
      unfold Dat.leavesExact; rw [live_out_at t], after_out]
  by_cases h0 : t.val = 0
  · -- the start point
    rw [held_start m c t h0]
    unfold outStart castStart; (try dsimp only)
    rw [inv_castSucc m c t, scratchInv_zero m c _ _ h0, anyScratch_eq]
    iintro ⟨⟨HS, Hg⟩, Ho, ⟨%d0, H0⟩, ⟨%d1, H1⟩, ⟨%d2, H2⟩, ⟨%d3, H3⟩⟩
    iapply ((runStart c (grid0.coords t) _ _ _ _ _ _ _ _ _ _ ((atStart_iff t).mpr h0) ((atLo_iff t).mpr (by omega)) (fun h => by have h' := (atHi_iff t).mp h; omega) (iblk m c 0 t) (iblk m c 1 t) (iblk m c 2 t)).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hg]
    · isplitl [HS]
      · unfold owns; iexists _; isplitr
        swap; · iexact HS
        ipureintro; exact View.read_writes_of_cover _ _ _ _ _ (coverStart_cast c _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverStart_out c _ _ _ _ _ _ _ _ _ _ _ _ _ _ _ _ _)
  · by_cases h1 : t.val % 2 = 0
    · -- a later first-half point
      rw [held_lo m c t h0 h1]
      unfold outLo; (try dsimp only)
      rw [inv_castSucc m c t, scratchInv_pos m c _ _ h0]
      iintro ⟨⟨HS, Hg⟩, Ho, ⟨%d0, H0⟩, ⟨%d1, H1⟩, ⟨%d2, H2⟩, ⟨%d3, H3⟩⟩
      iapply ((runLo c (grid0.coords t) _ _ _ _ _ _ _ _ _ _ (fun h => h0 ((atStart_iff t).mp h)) ((atLo_iff t).mpr h1) (fun h => by have h' := (atHi_iff t).mp h; omega) (iblk m c 0 t) (iblk m c 1 t) (iblk m c 2 t) _).2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, HS⟩
      isplitl [HS Hg]
      · isplitl [HS]
        · iexact HS
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLo c _ _ _ _ _ _ _ _ _ _ _ _ _ _ _ _ _ _)
    · -- a second-half point
      have h1' : t.val % 2 = 1 := by omega
      rw [held_hi m c t h1']
      simp only [before_out_hi m c t h1']
      unfold outHi; (try dsimp only)
      rw [inv_castSucc m c t, scratchInv_pos m c _ _ h0]
      iintro ⟨⟨HS, Hg⟩, Ho, ⟨%d0, H0⟩, ⟨%d1, H1⟩, ⟨%d2, H2⟩, ⟨%d3, H3⟩⟩
      iapply ((runHi c (grid0.coords t) _ _ _ _ _ _ _ _ _ _ (fun h => h0 ((atStart_iff t).mp h)) (fun h => h1 ((atLo_iff t).mp h)) ((atHi_iff t).mpr h1') (iblk m c 0 t) (iblk m c 1 t) (iblk m c 2 t) _ _).2 Set.univ _)
      isplitl [H0]; · iexact H0
      isplitl [H1]; · iexact H1
      isplitl [H2]; · iexact H2
      isplitl [H3]; · iexact H3
      isplitl [HS]; · iexact HS
      iintro ⟨H0, H1, H2, ⟨%e3, H3⟩, HS⟩
      isplitl [HS Hg]
      · isplitl [HS]
        · iexact HS
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverHi c _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem inv_in (c : Dev nD) : Pipeline.ΦA spec0 c ⊢ (dats m 0 c).Φ 0 := by
  rw [show (dats m 0 c).Φ 0 = scratchInv m c 0 (Nat.zero_le _) from rfl, scratchInv_zero m c 0 _ rfl]
  try exact Idealize.SL.BI.Entails.refl _

/-- After the last point the invariant gives the scratch back at some contents. -/
theorem inv_out (c : Dev nD) : (dats m 0 c).Φ (Fin.last cfg0.N) ⊢ Pipeline.ΦA spec0 c := by
  rw [show (dats m 0 c).Φ (Fin.last cfg0.N) = scratchInv m c (Fin.last cfg0.N).val (Nat.le_of_lt_succ (Fin.last cfg0.N).isLt) from rfl,
    scratchInv_pos m c _ _ (by rw [Fin.val_last]; have : cfg0.N = 32 := N_0; omega), anyScratch_eq]
  iintro ⟨HS, Hg⟩
  isplitl [HS]
  · iexists _; iexact HS
  iexact Hg

set_option backward.isDefEq.respectTransparency.types false in
/-- Every weakly fair execution of @main on the TensorCores terminates, and every final state has every array of the
    pipeline at what the write-backs of the proof data's tiles make of it and every other unscoped buffer as the
    region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Router

end
-- ==== Proof.Spec.lean ====
/-
  The router's logits as ONE function of the argument arrays, index by index, over the extended reals.
  For a token row r and an expert e the kernel adds two half-length dot products, the bias joining the first:
    logits[r, e] = (sum over j < 2048 of x[r, j] * w[e, j]  +  b[e])
                   +  sum over j < 2048 of x[r, 2048 + j] * w[e, 2048 + j],
  and the plain matrix product plus bias, sum over k < 4096 of x[r, k] * w[e, k] + b[e], is the same extended real:
  a sum over 4096 columns splits at column 2048, and addition of extended reals is commutative and associative
  (no finiteness is needed: nothing is cancelled or distributed).
-/
import Idealize.ShloMosaic.PureOps.Ideal
import Idealize.ShloMosaic.Lib.ValueIdx

noncomputable section

namespace Cert.Router

open Idealize.ShloMosaic Idealize.ShloMosaic.ValueIdx

/-- The shapes of the three arguments and of the result. -/
abbrev Sx : Shape := ⟨2, ![32768, 4096]⟩
abbrev Sw : Shape := ⟨2, ![512, 4096]⟩
abbrev Sb : Shape := ⟨1, ![512]⟩
abbrev So : Shape := ⟨2, ![32768, 512]⟩

/-- Column j of the first half of the hidden axis, and column 2048 + j of the second. -/
abbrev lo (j : Fin 2048) : Fin 4096 := ⟨j.val, by omega⟩
abbrev hi (j : Fin 2048) : Fin 4096 := ⟨2048 + j.val, by omega⟩

/-- One half-length dot product of token row r with expert row e: the columns `col j`, j < 2048. -/
def halfDot (x : FVec Ideal Sx .f32) (w : FVec Ideal Sw .f32) (col : Fin 2048 → Fin 4096) (r : Fin 32768) (e : Fin 512) : EReal :=
  ∑ j : Fin 2048, x (ix2 r (col j)) * w (ix2 e (col j))

/-- The logits, in the kernel's order of additions. -/
def logits (x : FVec Ideal Sx .f32) (w : FVec Ideal Sw .f32) (b : FVec Ideal Sb .f32) : FVec Ideal So .f32 := fun i =>
  (halfDot x w lo ⟨(i 0).val, (i 0).isLt⟩ ⟨(i 1).val, (i 1).isLt⟩ + b (ix1 ⟨(i 1).val, (i 1).isLt⟩))
    + halfDot x w hi ⟨(i 0).val, (i 0).isLt⟩ ⟨(i 1).val, (i 1).isLt⟩

/-- A sum over the 4096 columns is the sum over the first 2048 plus the sum over the last 2048. -/
theorem sum_split {M : Type*} [AddCommMonoid M] (f : Fin 4096 → M) :
    ∑ k : Fin 4096, f k = (∑ j : Fin 2048, f (lo j)) + ∑ j : Fin 2048, f (hi j) := by
  exact Fin.sum_univ_add (M := M) (a := 2048) (b := 2048) f

/-- The full-length dot product plus the bias is the kernel's two halves with the bias inside. -/
theorem full_eq_halves (x : FVec Ideal Sx .f32) (w : FVec Ideal Sw .f32) (β : EReal) (r : Fin 32768) (e : Fin 512) :
    (∑ k : Fin 4096, x (ix2 r k) * w (ix2 e k)) + β = (halfDot x w lo r e + β) + halfDot x w hi r e := by
  rw [sum_split (fun k => x (ix2 r k) * w (ix2 e k))]
  unfold halfDot
  exact add_right_comm _ _ _

end Cert.Router

end
-- ==== Proof.Value.Final.lean ====
/-
  The kernel's result array after the run, at the ideal instance, is the logits function of the argument arrays.
  Only second-half points write the output tile back, and tile u = t / 2 written back at point t = 2u + 1 holds, at
  row p and expert q, the first half product of token row 2048 u + p with expert row q plus the bias, plus the second
  half product: the logits at (2048 u + p, q). The sixteen tiles cover the array.
-/
import proofs.«170584_g68101001445530_cont_9to1c4b_284_18_alg».proof.Proof.Value.Held
import proofs.«170584_g68101001445530_cont_9to1c4b_284_18_alg».proof.Proof.Value.Blocks
import proofs.«170584_g68101001445530_cont_9to1c4b_284_18_alg».proof.Proof.Value.Payloads
import proofs.«170584_g68101001445530_cont_9to1c4b_284_18_alg».proof.Proof.KI.Body
import proofs.«170584_g68101001445530_cont_9to1c4b_284_18_alg».proof.Proof.Spec

set_option maxRecDepth 16384

noncomputable section

namespace Cert.KernelIdeal.Router

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-- The three argument arrays at launch. -/
abbrev argX (c : Dev nD) : FVec Ideal Cert.Router.Sx .f32 := m ((c.tc : Thread nD τ).loc main_arg0)
abbrev argW (c : Dev nD) : FVec Ideal Cert.Router.Sw .f32 := m ((c.tc : Thread nD τ).loc main_arg1)
abbrev argB (c : Dev nD) : FVec Ideal Cert.Router.Sb .f32 := m ((c.tc : Thread nD τ).loc main_arg2)

theorem lt_N (t : Fin cfg0.N) : t.val < 32 := lt_of_lt_of_eq t.isLt (show cfg0.N = 32 from N_0)

/-- The cast weights at an index are the weight array's entry (a change of float format is the identity on extended reals). -/
theorem castW_at (c : Dev nD) (e : Fin 512) (k : Fin 4096) : castW m c (ix2 e k) = argW m c (ix2 e k) := by
  unfold castW
  refine (castW_apply (wblk m c ⟨0, N_pos⟩) e k).trans ?_
  exact congrFun (wblock_eq m c ⟨0, N_pos⟩) (ix2 e k)

/-- One half product of a point's token tile with its half of the cast weights is the half-length dot product of the
    arrays' rows over that half's columns. -/
theorem half_at (c : Dev nD) (t : Fin cfg0.N) (col : Fin 2048 → Fin 4096) (hcol : ∀ j, (col j).val = 2048 * (t.val % 2) + j.val)
    (p : Fin 2048) (q : Fin 512) (r : Fin 32768) (hr : r.val = 2048 * (t.val / 2) + p.val) :
    (∑ j : Fin 2048, xblk m c t (ix2 p j) * wHalf (grid0.coords t) (castW m c) (ix2 q j))
      = Cert.Router.halfDot (argX m c) (argW m c) col r q := by
  unfold Cert.Router.halfDot
  refine Finset.sum_congr rfl fun j _ => ?_
  have ex : xblk m c t (ix2 p j) = argX m c (ix2 r (col j)) := xblock_apply m c t p j r (col j) hr (hcol j)
  have ew : wHalf (grid0.coords t) (castW m c) (ix2 q j) = argW m c (ix2 q (col j)) :=
    (wHalf_apply t (castW m c) q j (col j) (hcol j)).trans (castW_at m c q (col j))
  rw [ex, ew]

/-- The output tile after a second-half point, entry by entry, is the logits of its rows. -/
theorem tile_apply (c : Dev nD) (t : Fin cfg0.N) (h1 : t.val % 2 = 1) (y : S2048x512.Idx) (i : S32768x512.Idx)
    (hi0 : (i 0).val = 2048 * (t.val / 2) + (y 0).val) (hi1 : (i 1).val = (y 1).val) :
    (held m c t.val t.isLt).1 y = Cert.Router.logits (argX m c) (argW m c) (argB m c) i := by
  obtain ⟨p, q, rfl⟩ : ∃ (p : Fin 2048) (q : Fin 512), y = ix2 p q := ⟨y 0, y 1, eq_ix2 y⟩
  have hq : (⟨(i 1).val, (i 1).isLt⟩ : Fin 512) = q := Fin.ext hi1
  have hN := lt_N t
  rw [held_tile m c t h1]
  refine (second_apply _ _ _ p q).trans ?_
  rw [first_apply]
  unfold Cert.Router.logits
  rw [hq]
  have e1 := half_at m c (prev t) Cert.Router.lo (fun j => by show j.val = 2048 * ((t.val - 1) % 2) + j.val; omega) p q ⟨(i 0).val, (i 0).isLt⟩
    (by show (i 0).val = 2048 * ((t.val - 1) / 2) + p.val; have : (i 0).val = 2048 * (t.val / 2) + p.val := hi0; omega)
  have e2 := half_at m c t Cert.Router.hi (fun j => by show 2048 + j.val = 2048 * (t.val % 2) + j.val; omega) p q ⟨(i 0).val, (i 0).isLt⟩ hi0
  have eb : bblk m c (prev t) (ix2 (0 : Fin 1) q) = argB m c (ix1 q) := bblock_apply m c (prev t) q
  rw [e1, e2, eb]

/-- The output window's block index at a point: tile t / 2, the one block of the expert axis. -/
theorem out_index : ∀ t : Fin cfg0.N, win0_3.index t (0 : Fin 2) = t.val / 2 ∧ win0_3.index t (1 : Fin 2) = 0 :=
  (by decide +kernel : ∀ t : Fin grid0.N, _)

/-- What a second-half point writes back is its block of the logits of the argument arrays. -/
theorem flushed_eq (c : Dev nD) (t : Fin cfg0.N) (hf : (cfg0.win 3).flush t = true) :
    (dats m 0 c).flushed 3 t = ((cfg0.win 3).blk t).view.read (Elt Ideal) (Cert.Router.logits (argX m c) (argW m c) (argB m c)) := by
  have h1 : t.val % 2 = 1 := (flush0_3 t).mp hf
  obtain ⟨e0, e1⟩ := out_index t
  show (cfg0.win 3).cut (grid0.coords t) ((dats m 0 c).after 3 t) = _
  rw [after_out]
  funext y
  rw [View.read_apply]
  refine tile_apply m c t h1 _ _ ?_ ?_
  · show win0_3.index t (0 : Fin 2) * 2048 + 1 * (y 0).val = 2048 * (t.val / 2) + (y 0).val; omega
  · show win0_3.index t (1 : Fin 2) * 512 + 1 * (y 1).val = (y 1).val; omega

/-- An index of the result array is in point t's block iff each coordinate is in the block's range on its axis. -/
theorem mem_blk (t : Fin cfg0.N) (i : S32768x512.Idx) :
    i ∈ ((cfg0.win 3).blk t).view.set ↔ ∀ a : Fin 2, win0_3.index t a * S2048x512.size a ≤ (i a).val ∧ (i a).val < win0_3.index t a * S2048x512.size a + S2048x512.size a := by
  show i ∈ ((View.whole main_v1).slice (win0_3.rect t)).set ↔ _
  rw [View.set_slice_whole, Rect.mem_set_unit]
  exact Iff.rfl

/-- Every index of the result array is in the block some second-half point writes back: row r is in tile r / 2048. -/
theorem covered (i : S32768x512.Idx) : ∃ t : Fin cfg0.N, (cfg0.win 3).flush t = true ∧ i ∈ ((cfg0.win 3).blk t).view.set := by
  have hi0 : (i 0).val < 32768 := (i 0).isLt
  have hi1 : (i 1).val < 512 := (i 1).isLt
  have hlt : 2 * ((i 0).val / 2048) + 1 < cfg0.N := by rw [show cfg0.N = 32 from N_0]; omega
  refine ⟨⟨2 * ((i 0).val / 2048) + 1, hlt⟩, (flush0_3 _).mpr (by dsimp only; omega), ?_⟩
  obtain ⟨e0, e1⟩ := out_index ⟨2 * ((i 0).val / 2048) + 1, hlt⟩
  rw [mem_blk]
  intro a
  match a with
  | ⟨0, _⟩ => show win0_3.index _ (0 : Fin 2) * 2048 ≤ (i 0).val ∧ (i 0).val < win0_3.index _ (0 : Fin 2) * 2048 + 2048; dsimp only at e0; omega
  | ⟨1, _⟩ => show win0_3.index _ (1 : Fin 2) * 512 ≤ (i 1).val ∧ (i 1).val < win0_3.index _ (1 : Fin 2) * 512 + 512; omega

/-- The result array after the run is the logits of the argument arrays. -/
theorem final (c : Dev nD) : (dats m 0 c).arrAt 3 cfg0.N = Cert.Router.logits (argX m c) (argW m c) (argB m c) :=
  (dats m 0 c).arrAt_eq_of_cover 3 _ (fun t hf => flushed_eq m c t hf) covered

/-- The run, read: every weakly fair execution terminates with the result array at the logits of the argument arrays
    and the argument arrays unchanged. -/
theorem run : θ_run defs (onTc (τ := τ) (main (F := Ideal))) ⟨m, fun _ => 0, ρ⟩ fun r => ∀ c : Dev nD,
      r.2.mem ((c.tc : Thread nD τ).loc main_v1) = Cert.Router.logits (argX m c) (argW m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 3).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main m ρ)

end Cert.KernelIdeal.Router

end
-- ==== Proof.RefLogits.lean ====
/-
  The idealized reference, read index by index, is the specification function.
  The reference transposes the weights, contracts the hidden axis of the tokens with the first axis of the
  transposed weights, broadcasts the bias along the token axis and adds. At an output index (r, e) that is
    sum over k < 4096 of x[r, k] * w[e, k]  +  b[e]:
  the transposed weights at (k, e) are the weights at (e, k), and the twice-broadcast bias at (r, e) is b[e].
  The specification adds the two half-length sums with the bias inside the first; the two agree as extended reals
  because a sum over 4096 columns splits at column 2048 and addition is commutative and associative.
-/
import proofs.«170584_g68101001445530_cont_9to1c4b_284_18_alg».proof.Proof.Spec
import proofs.«170584_g68101001445530_cont_9to1c4b_284_18_alg».proof.Proof.Gen.ReferenceIdeal.Read

noncomputable section

namespace Cert.Router.Reference

open Idealize.ShloMosaic Idealize.ShloMosaic.ValueIdx Cert.ReferenceIdeal Cert.ReferenceIdeal.Read

/-- The left operand of the contraction is read at row `i 0`, column `k`. -/
theorem lidx_eq (i : S32768x512.Idx) (k : Fin 4096) :
    lidx_main_v1 i k = ix2 (⟨(i 0).val, (i 0).isLt⟩ : Fin 32768) k :=
  funext fun a => Fin.ext (by match a with | ⟨0, _⟩ => rfl | ⟨1, _⟩ => rfl)

/-- The transposed weights at (k, `i 1`) are the weights at row `i 1`, column `k`. -/
theorem ridx_eq (i : S32768x512.Idx) (k : Fin 4096) :
    idx_main_v0 (ridx_main_v1 i k) = ix2 (⟨(i 1).val, (i 1).isLt⟩ : Fin 512) k :=
  funext fun a => Fin.ext (by match a with | ⟨0, _⟩ => rfl | ⟨1, _⟩ => rfl)

/-- The bias, broadcast twice, is read at `i 1`. -/
theorem bidx_eq (i : S32768x512.Idx) :
    idx_main_v2 (idx_main_v3 i) = ix1 (⟨(i 1).val, (i 1).isLt⟩ : Fin 512) :=
  funext fun a => Fin.ext (by match a with | ⟨0, _⟩ => rfl)

/-- The reference's result is the specification's logits. -/
theorem reference_eq_logits (x0 : (⟨Cert.ReferenceIdeal.S32768x4096, .f32⟩ : BufTy).Contents (Elt Ideal)) (x1 : (⟨Cert.ReferenceIdeal.S512x4096, .f32⟩ : BufTy).Contents (Elt Ideal)) (x2 : (⟨Cert.ReferenceIdeal.S512, .f32⟩ : BufTy).Contents (Elt Ideal)) :
    Cert.ReferenceIdeal.Read.val_main_v4 (F := Ideal) x0 x1 x2 = Cert.Router.logits x0 x1 x2 := by
  funext i
  rw [val_main_v4_apply, val_main_v1_apply, val_main_v3_apply, val_main_v2_apply]
  simp only [val_main_v0_apply, lidx_eq, ridx_eq, bidx_eq]
  exact Cert.Router.full_eq_halves x0 x1 _ _ _

end Cert.Router.Reference

end
-- ==== Proof.lean ====
/-
  The router kernel against its reference: logits = hidden_states · Wᵀ + b over f32[32768, 4096], f32[512, 4096], f32[512].
  The kernel walks 16 token tiles of 2048 rows, each in two halves of the hidden axis. At the very first point it casts
  the weight matrix to bf16 into a scratch buffer it keeps for the whole run; at the first half of a tile it stores the
  half-length product plus the bias into the output tile, and at the second half it adds the other half-length product
  to the tile, which is then written back. On the extended reals a change of float format is the identity and the
  matrix unit's product into a zero accumulator is the plain sum, so tile u, row p, expert q ends at
    (sum over j < 2048 of x[2048 u + p, j] w[q, j]  +  b[q])  +  sum over j < 2048 of x[2048 u + p, 2048 + j] w[q, 2048 + j],
  and the reference's sum over all 4096 columns plus b[q] is the same extended real: a sum splits at column 2048 and
  addition is commutative and associative (Proof/Spec.lean; finiteness of the inputs is never used).
  The three frames: the two printed kernels are the same text in two namespaces, and their body obligation is proved
  once for any float instance (Proof/KI, copied to Proof/K): three kinds of grid point, the scratch carried through the
  region's invariant, the output tile's buffer at a second-half point holding what the first-half point left. The
  reference's frame is its run with the result dropped. The idealization rewrote nothing, so the preservation claim
  has no conjunct.
-/
import proofs.«170584_g68101001445530_cont_9to1c4b_284_18_alg».proof.Defs
import proofs.«170584_g68101001445530_cont_9to1c4b_284_18_alg».proof.Proof.Gen.Kernel
import proofs.«170584_g68101001445530_cont_9to1c4b_284_18_alg».proof.Proof.Gen.KernelIdeal
import proofs.«170584_g68101001445530_cont_9to1c4b_284_18_alg».proof.Proof.Gen.ReferenceIdeal
import proofs.«170584_g68101001445530_cont_9to1c4b_284_18_alg».proof.Proof.Gen.ReferenceIdeal.Run
import proofs.«170584_g68101001445530_cont_9to1c4b_284_18_alg».proof.Proof.Gen.ReferenceIdeal.Read
import proofs.«170584_g68101001445530_cont_9to1c4b_284_18_alg».proof.Proof.Gen.Pre_finite_inputs
import proofs.«170584_g68101001445530_cont_9to1c4b_284_18_alg».proof.Proof.K.Body
import proofs.«170584_g68101001445530_cont_9to1c4b_284_18_alg».proof.Proof.Value.Final
import proofs.«170584_g68101001445530_cont_9to1c4b_284_18_alg».proof.Proof.RefLogits
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Router.frame m ρ

/-- So does the idealized kernel. -/
theorem frame_kernelIdeal : Cert.frame_KernelIdeal := fun m ρ _ => Cert.KernelIdeal.Router.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with the logits of the (agreeing) argument arrays. -/
theorem algebraic : Cert.algebraic_KernelIdeal_ReferenceIdeal := by
  intro m ρ m' ρ' _ hagree
  refine ⟨_, Cert.KernelIdeal.Router.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.Router.Reference.reference_eq_logits,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
